-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1048576 : Shape := ⟨2, ![32, 1048576]⟩
abbrev S_ : Shape := ⟨0, ![]⟩

class Facts : Prop where
  bcast_S_S32x1048576 : S_.BroadcastsInDim S32x1048576 (![] : Fin 0 → Fin S32x1048576.rank)
  reducesTo_S32x1048576_S_d0_1 : S32x1048576.ReducesTo [0, 1] S_
  h_S_ : 0 < S_.numel

variable [Facts]

def fn {F : FTy → Type} [FloatOps F] (main_arg0 : FVec F S32x1048576 .f32) (main_arg1 : FVec F S32x1048576 .f32) (main_arg2 : FVec F S32x1048576 .f32) : IVec S_ 1 :=
  let main_v0 : FVec F S32x1048576 .f32 := Host.absf main_arg0
  let main_cst : FVec F S_ .f32 := constant S_ .f32 0x7F800000#32
  let main_v1 : FVec F S32x1048576 .f32 := broadcastInDim S32x1048576 ![] bcast_S_S32x1048576 main_cst
  let main_v2 : IVec S32x1048576 1 := cmpf .olt main_v0 main_v1
  let main_c : IVec S_ 1 := constantI S_ 1 1#1
  let main_v3 : IVec S_ 1 := (fun x v => Host.reduce IntOp.andi x v reducesTo_S32x1048576_S_d0_1 h_S_) main_v2 main_c
  let main_v4 : FVec F S32x1048576 .f32 := Host.absf main_arg1
  let main_cst_0 : FVec F S_ .f32 := constant S_ .f32 0x7F800000#32
  let main_v5 : FVec F S32x1048576 .f32 := broadcastInDim S32x1048576 ![] bcast_S_S32x1048576 main_cst_0
  let main_v6 : IVec S32x1048576 1 := cmpf .olt main_v4 main_v5
  let main_c_1 : IVec S_ 1 := constantI S_ 1 1#1
  let main_v7 : IVec S_ 1 := (fun x v => Host.reduce IntOp.andi x v reducesTo_S32x1048576_S_d0_1 h_S_) main_v6 main_c_1
  let main_v8 : IVec S_ 1 := andi main_v3 main_v7
  let main_v9 : FVec F S32x1048576 .f32 := Host.absf main_arg2
  let main_cst_2 : FVec F S_ .f32 := constant S_ .f32 0x7F800000#32
  let main_v10 : FVec F S32x1048576 .f32 := broadcastInDim S32x1048576 ![] bcast_S_S32x1048576 main_cst_2
  let main_v11 : IVec S32x1048576 1 := cmpf .olt main_v9 main_v10
  let main_c_3 : IVec S_ 1 := constantI S_ 1 1#1
  let main_v12 : IVec S_ 1 := (fun x v => Host.reduce IntOp.andi x v reducesTo_S32x1048576_S_d0_1 h_S_) main_v11 main_c_3
  let main_v13 : IVec S_ 1 := andi main_v8 main_v12
  main_v13
-- ==== Kernel.lean ====
abbrev S32x1048576 : Shape := ⟨2, ![32, 1048576]⟩
abbrev S1x128 : Shape := ⟨2, ![1, 128]⟩
abbrev S32x16384 : Shape := ⟨2, ![32, 16384]⟩
abbrev S32 : Shape := ⟨1, ![32]⟩
abbrev S1x32 : Shape := ⟨2, ![1, 32]⟩
abbrev S1 : Shape := ⟨1, ![1]⟩
abbrev S1x1 : Shape := ⟨2, ![1, 1]⟩
abbrev S_ : Shape := ⟨0, ![]⟩
abbrev S2 : Shape := ⟨1, ![2]⟩
abbrev S1x10 : Shape := ⟨2, ![1, 10]⟩
abbrev S10 : Shape := ⟨1, ![10]⟩

abbrev nBuf : Space → Nat
  | .hbm => 65
  | .vmem => 24
  | .smem => 0
  | _ => 0

abbrev bufTy : (tb : Table) → Fin (tcTables nBuf tb) → BufTy
  | .hbm, ⟨0, _⟩ => ⟨S32x1048576, .f32⟩
  | .hbm, ⟨1, _⟩ => ⟨S32x1048576, .f32⟩
  | .hbm, ⟨2, _⟩ => ⟨S32x1048576, .f32⟩
  | .hbm, ⟨3, _⟩ => ⟨S1x128, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x128, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S1x128, .f32⟩
  | .hbm, ⟨26, _⟩ => ⟨S1x128, .f32⟩
  | .hbm, ⟨27, _⟩ => ⟨S1x10, .f32⟩
  | .hbm, ⟨28, _⟩ => ⟨S10, .f32⟩
  | .hbm, ⟨29, _⟩ => ⟨S_, .f32⟩
  | .hbm, ⟨30, _⟩ => ⟨S10, .f32⟩
  | .hbm, ⟨31, _⟩ => ⟨S10, .i1⟩
  | .hbm, ⟨32, _⟩ => ⟨S10, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1x128, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S1x128, .f32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S2, .i32⟩
  | .hbm, ⟨50, _⟩ => ⟨S1x128, .f32⟩
  | .hbm, ⟨51, _⟩ => ⟨S_, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S2, .i32⟩
  | .hbm, ⟨56, _⟩ => ⟨S1x128, .f32⟩
  | .hbm, ⟨57, _⟩ => ⟨S1x128, .f32⟩
  | .hbm, ⟨58, _⟩ => ⟨S1x1, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .local _ .vmem, ⟨0, _⟩ => ⟨S32x16384, .f32⟩
  | .local _ .vmem, ⟨1, _⟩ => ⟨S32x16384, .f32⟩
  | .local _ .vmem, ⟨2, _⟩ => ⟨S32x16384, .f32⟩
  | .local _ .vmem, ⟨3, _⟩ => ⟨S32x16384, .f32⟩
  | .local _ .vmem, ⟨4, _⟩ => ⟨S32x16384, .f32⟩
  | .local _ .vmem, ⟨5, _⟩ => ⟨S32x16384, .f32⟩
  | .local _ .vmem, ⟨6, _⟩ => ⟨S1x128, .f32⟩
  | .local _ .vmem, ⟨7, _⟩ => ⟨S32x16384, .f32⟩
  | .local _ .vmem, ⟨8, _⟩ => ⟨S32x16384, .f32⟩
  | .local _ .vmem, ⟨9, _⟩ => ⟨S32x16384, .f32⟩
  | .local _ .vmem, ⟨10, _⟩ => ⟨S32x16384, .f32⟩
  | .local _ .vmem, ⟨11, _⟩ => ⟨S32x16384, .f32⟩
  | .local _ .vmem, ⟨12, _⟩ => ⟨S32x16384, .f32⟩
  | .local _ .vmem, ⟨13, _⟩ => ⟨S1x128, .f32⟩
  | .local _ .vmem, ⟨14, _⟩ => ⟨S1x128, .f32⟩
  | .local _ .vmem, ⟨15, _⟩ => ⟨S32x16384, .f32⟩
  | .local _ .vmem, ⟨16, _⟩ => ⟨S32x16384, .f32⟩
  | .local _ .vmem, ⟨17, _⟩ => ⟨S32x16384, .f32⟩
  | .local _ .vmem, ⟨18, _⟩ => ⟨S32x16384, .f32⟩
  | .local _ .vmem, ⟨19, _⟩ => ⟨S32x16384, .f32⟩
  | .local _ .vmem, ⟨20, _⟩ => ⟨S32x16384, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | _, _ => ⟨S32x1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_c_7 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_9 : Ref sig .tc := ⟨.hbm, 45, rfl⟩
abbrev main_v31 : Ref sig .tc := ⟨.hbm, 46, rfl⟩
abbrev main_c_10 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_11 : Ref sig .tc := ⟨.hbm, 51, rfl⟩
abbrev main_v35 : Ref sig .tc := ⟨.hbm, 52, rfl⟩
abbrev main_c_12 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_13 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S32x16384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S32x16384 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S32x16384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  inb_S1x128_S1x128_0_0 : ∀ a, (![0, 0] : Fin 2 → Nat) a + S1x128.size a ≤ S1x128.size a
  h_S1x128 : 0 < S1x128.numel
  inb_S32x16384_S32x16384_0_0 : ∀ a, (![0, 0] : Fin 2 → Nat) a + S32x16384.size a ≤ S32x16384.size a
  h_S32x16384 : 0 < S32x16384.numel
  reduces_S32x16384_S32 : S32x16384.Reduces [1] S32
  shapeCasts_S32_S1x32 : S32.ShapeCasts S1x32
  reduces_S1x32_S1 : S1x32.Reduces [1] S1
  shapeCasts_S1_S1x1 : S1.ShapeCasts S1x1
  inpos_S1x1_p0_0 : ∀ a, (![0, 0] : Fin 2 → Nat) a < S1x1.size a
  natLt_1_32 : 1 < 32
  iota_S1x128_d1_w32 : S1x128.Iotas .tc 32 [1]
  shapeCasts_S1x128_S1x128 : S1x128.ShapeCasts S1x128
  slices_S1x128_S1x1_0_0 : S1x128.Slices ![0, 0] S1x1
  shapeCasts_S1x1_S_ : S1x1.ShapeCasts S_
  slices_S1x128_S1x1_0_1 : S1x128.Slices ![0, 1] S1x1
  slices_S1x128_S1x1_0_2 : S1x128.Slices ![0, 2] S1x1
  slices_S1x128_S1x1_0_3 : S1x128.Slices ![0, 3] S1x1
  bcast_S_S1x128 : S_.BroadcastsInDim S1x128 (![] : Fin 0 → Fin S1x128.rank)
  bcast_S_S1 : S_.BroadcastsInDim S1 (![] : Fin 0 → Fin S1.rank)
  concatenates_S1_S1_S2_d0 : Shape.Concatenates [S1, S1] S2 0
  inb_S1x128_S1x1_0_0 : ∀ a, (![0, 0] : Fin 2 → Nat) a + S1x1.size a ≤ S1x128.size a
  h_S1x1 : 0 < S1x1.numel
  slices_S1x128_S1x10_0_0 : S1x128.Slices ![0, 0] S1x10
  shapeCasts_S1x10_S10 : S1x10.ShapeCasts S10
  bcast_S_S10 : S_.BroadcastsInDim S10 (![] : Fin 0 → Fin S10.rank)
  reducesTo_S10_S_d0 : S10.ReducesTo [0] S_
  h_S_ : 0 < S_.numel
  inb_S1x128_S1x1_0_1 : ∀ a, (![0, 1] : Fin 2 → Nat) a + S1x1.size a ≤ S1x128.size a
  inb_S1x128_S1x1_0_2 : ∀ a, (![0, 2] : Fin 2 → Nat) a + S1x1.size a ≤ S1x128.size a
  slices_S1x128_o0_0_S1x1 : S1x128.Slices ![0, 0] S1x1
  slices_S1x128_o0_1_S1x1 : S1x128.Slices ![0, 1] S1x1
  slices_S1x128_o0_2_S1x1 : S1x128.Slices ![0, 2] S1x1
  slices_S1x128_o0_3_S1x1 : S1x128.Slices ![0, 3] S1x1
  slices_S1x128_o0_4_S1x1 : S1x128.Slices ![0, 4] S1x1
  slices_S1x128_o0_5_S1x1 : S1x128.Slices ![0, 5] S1x1
  slices_S1x128_o0_6_S1x1 : S1x128.Slices ![0, 6] S1x1
  slices_S1x128_o0_7_S1x1 : S1x128.Slices ![0, 7] S1x1
  slices_S1x128_o0_8_S1x1 : S1x128.Slices ![0, 8] S1x1
  slices_S1x128_o0_9_S1x1 : S1x128.Slices ![0, 9] S1x1
  scatter_S1x128_S2_S__n_01_01_0_wf : ScatterDims.WF S1x128 S2 S_ [] [0, 1] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16384.size a ≤ S32x1048576.size a
  hwx0_0 : ∀ i : grid0.Coords, EltTy.bits .f32 = 32 ∨ (Rect.block (s := S32x1048576) S32x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16384.size a ≤ S32x1048576.size a
  hwx0_1 : ∀ i : grid0.Coords, EltTy.bits .f32 = 32 ∨ (Rect.block (s := S32x1048576) S32x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x16384.size a ≤ S32x1048576.size a
  hwx0_2 : ∀ i : grid0.Coords, EltTy.bits .f32 = 32 ∨ (Rect.block (s := S32x1048576) S32x16384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x16384.size a ≤ S32x1048576.size a
  hwx1_0 : ∀ i : grid1.Coords, EltTy.bits .f32 = 32 ∨ (Rect.block (s := S32x1048576) S32x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x16384.size a ≤ S32x1048576.size a
  hwx1_1 : ∀ i : grid1.Coords, EltTy.bits .f32 = 32 ∨ (Rect.block (s := S32x1048576) S32x16384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x16384.size a ≤ S32x1048576.size a
  hwx1_2 : ∀ i : grid1.Coords, EltTy.bits .f32 = 32 ∨ (Rect.block (s := S32x1048576) S32x16384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x16384.size a ≤ S32x1048576.size a
  hwx2_0 : ∀ i : grid2.Coords, EltTy.bits .f32 = 32 ∨ (Rect.block (s := S32x1048576) S32x16384.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S32x16384.size a ≤ S32x1048576.size a
  hwx2_1 : ∀ i : grid2.Coords, EltTy.bits .f32 = 32 ∨ (Rect.block (s := S32x1048576) S32x16384.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S32x16384.size a ≤ S32x1048576.size a
  hwx2_2 : ∀ i : grid2.Coords, EltTy.bits .f32 = 32 ∨ (Rect.block (s := S32x1048576) S32x16384.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)

variable [Facts₀]

def scatter_S1x128_S2_S__n_01_01_0 : ScatterDims S1x128 S2 S_ where
  updateWindowDims := []
  insertedWindowDims := [0, 1]
  scatterDimsToOperandDims := [0, 1]
  indexVectorDim := 0
  wf := scatter_S1x128_S2_S__n_01_01_0_wf

abbrev win0_0 : Pipeline.Window sig grid0 :=
  Pipeline.Window.ofSpec (Memref.whole main_arg0) S32x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S32x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S32x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S32x16384.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S32x16384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S32x16384.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S32x16384.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S32x1048576 : Shape := ⟨2, ![32, 1048576]⟩
abbrev S33554432 : Shape := ⟨1, ![33554432]⟩
abbrev S_ : Shape := ⟨0, ![]⟩
abbrev S10 : Shape := ⟨1, ![10]⟩
abbrev S33554432x1 : Shape := ⟨2, ![33554432, 1]⟩

abbrev nBuf : Space → Nat
  | .hbm => 99
  | .vmem => 0
  | .smem => 0
  | _ => 0

abbrev bufTy : (tb : Table) → Fin (tcTables nBuf tb) → BufTy
  | .hbm, ⟨0, _⟩ => ⟨S32x1048576, .f32⟩
  | .hbm, ⟨1, _⟩ => ⟨S32x1048576, .f32⟩
  | .hbm, ⟨2, _⟩ => ⟨S32x1048576, .f32⟩
  | .hbm, ⟨3, _⟩ => ⟨S33554432, .f32⟩
  | .hbm, ⟨4, _⟩ => ⟨S33554432, .f32⟩
  | .hbm, ⟨5, _⟩ => ⟨S33554432, .f32⟩
  | .hbm, ⟨6, _⟩ => ⟨S33554432, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S33554432, .f32⟩
  | .hbm, ⟨18, _⟩ => ⟨S33554432, .f32⟩
  | .hbm, ⟨19, _⟩ => ⟨S33554432, .f32⟩
  | .hbm, ⟨20, _⟩ => ⟨S33554432, .f32⟩
  | .hbm, ⟨21, _⟩ => ⟨S_, .f32⟩
  | .hbm, ⟨22, _⟩ => ⟨S33554432, .f32⟩
  | .hbm, ⟨23, _⟩ => ⟨S33554432, .i1⟩
  | .hbm, ⟨24, _⟩ => ⟨S33554432, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S33554432, .f32⟩
  | .hbm, ⟨31, _⟩ => ⟨S33554432, .i1⟩
  | .hbm, ⟨32, _⟩ => ⟨S33554432, .i1⟩
  | .hbm, ⟨33, _⟩ => ⟨S_, .f32⟩
  | .hbm, ⟨34, _⟩ => ⟨S33554432, .f32⟩
  | .hbm, ⟨35, _⟩ => ⟨S33554432, .f32⟩
  | .hbm, ⟨36, _⟩ => ⟨S33554432, .f32⟩
  | .hbm, ⟨37, _⟩ => ⟨S33554432, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S33554432, .i32⟩
  | .hbm, ⟨42, _⟩ => ⟨S33554432, .i32⟩
  | .hbm, ⟨43, _⟩ => ⟨S_, .i32⟩
  | .hbm, ⟨44, _⟩ => ⟨S33554432, .i32⟩
  | .hbm, ⟨45, _⟩ => ⟨S33554432, .i32⟩
  | .hbm, ⟨46, _⟩ => ⟨S_, .f32⟩
  | .hbm, ⟨47, _⟩ => ⟨S10, .f32⟩
  | .hbm, ⟨48, _⟩ => ⟨S33554432, .f32⟩
  | .hbm, ⟨49, _⟩ => ⟨S_, .i32⟩
  | .hbm, ⟨50, _⟩ => ⟨S33554432, .i32⟩
  | .hbm, ⟨51, _⟩ => ⟨S33554432, .i1⟩
  | .hbm, ⟨52, _⟩ => ⟨S_, .i32⟩
  | .hbm, ⟨53, _⟩ => ⟨S33554432, .i32⟩
  | .hbm, ⟨54, _⟩ => ⟨S33554432, .i32⟩
  | .hbm, ⟨55, _⟩ => ⟨S33554432, .i32⟩
  | .hbm, ⟨56, _⟩ => ⟨S33554432x1, .i32⟩
  | .hbm, ⟨57, _⟩ => ⟨S10, .f32⟩
  | .hbm, ⟨58, _⟩ => ⟨S_, .f32⟩
  | .hbm, ⟨59, _⟩ => ⟨S10, .f32⟩
  | .hbm, ⟨60, _⟩ => ⟨S10, .i1⟩
  | .hbm, ⟨61, _⟩ => ⟨S10, .i32⟩
  | .hbm, ⟨62, _⟩ => ⟨S_, .i32⟩
  | .hbm, ⟨63, _⟩ => ⟨S_, .i32⟩
  | .hbm, ⟨64, _⟩ => ⟨S_, .f32⟩
  | .hbm, ⟨65, _⟩ => ⟨S_, .i32⟩
  | .hbm, ⟨66, _⟩ => ⟨S33554432, .i32⟩
  | .hbm, ⟨67, _⟩ => ⟨S33554432, .i1⟩
  | .hbm, ⟨68, _⟩ => ⟨S_, .i32⟩
  | .hbm, ⟨69, _⟩ => ⟨S33554432, .i32⟩
  | .hbm, ⟨70, _⟩ => ⟨S33554432, .i32⟩
  | .hbm, ⟨71, _⟩ => ⟨S33554432, .i32⟩
  | .hbm, ⟨72, _⟩ => ⟨S33554432x1, .i32⟩
  | .hbm, ⟨73, _⟩ => ⟨S33554432, .f32⟩
  | .hbm, ⟨74, _⟩ => ⟨S_, .f32⟩
  | .hbm, ⟨75, _⟩ => ⟨S33554432, .f32⟩
  | .hbm, ⟨76, _⟩ => ⟨S33554432, .f32⟩
  | .hbm, ⟨77, _⟩ => ⟨S33554432, .f32⟩
  | .hbm, ⟨78, _⟩ => ⟨S33554432, .f32⟩
  | .hbm, ⟨79, _⟩ => ⟨S_, .f32⟩
  | .hbm, ⟨80, _⟩ => ⟨S_, .f32⟩
  | .hbm, ⟨81, _⟩ => ⟨S33554432, .f32⟩
  | .hbm, ⟨82, _⟩ => ⟨S33554432, .f32⟩
  | .hbm, ⟨83, _⟩ => ⟨S_, .f32⟩
  | .hbm, ⟨84, _⟩ => ⟨S_, .f32⟩
  | .hbm, ⟨85, _⟩ => ⟨S33554432, .f32⟩
  | .hbm, ⟨86, _⟩ => ⟨S33554432, .f32⟩
  | .hbm, ⟨87, _⟩ => ⟨S_, .f32⟩
  | .hbm, ⟨88, _⟩ => ⟨S33554432, .f32⟩
  | .hbm, ⟨89, _⟩ => ⟨S33554432, .f32⟩
  | .hbm, ⟨90, _⟩ => ⟨S33554432, .f32⟩
  | .hbm, ⟨91, _⟩ => ⟨S33554432, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S32x1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_c_8 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_v28 : Ref sig .tc := ⟨.hbm, 48, rfl⟩
abbrev main_c_10 : Ref sig .tc := ⟨.hbm, 49, rfl⟩
abbrev main_v29 : Ref sig .tc := ⟨.hbm, 50, rfl⟩
abbrev main_v30 : Ref sig .tc := ⟨.hbm, 51, rfl⟩
abbrev main_c_11 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_12 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_13 : Ref sig .tc := ⟨.hbm, 62, rfl⟩
abbrev main_v39 : Ref sig .tc := ⟨.hbm, 63, rfl⟩
abbrev main_v40 : Ref sig .tc := ⟨.hbm, 64, rfl⟩
abbrev main_c_14 : Ref sig .tc := ⟨.hbm, 65, rfl⟩
abbrev main_v41 : Ref sig .tc := ⟨.hbm, 66, rfl⟩
abbrev main_v42 : Ref sig .tc := ⟨.hbm, 67, rfl⟩
abbrev main_c_15 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_16 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_17 : Ref sig .tc := ⟨.hbm, 79, rfl⟩
abbrev main_call1_v0 : Ref sig .tc := ⟨.hbm, 80, rfl⟩
abbrev main_call1_v1 : Ref sig .tc := ⟨.hbm, 81, rfl⟩
abbrev main_v52 : Ref sig .tc := ⟨.hbm, 82, rfl⟩
abbrev main_cst_18 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_19 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_20 : Ref sig .tc := ⟨.hbm, 92, rfl⟩
abbrev main_v60 : Ref sig .tc := ⟨.hbm, 93, rfl⟩
abbrev main_v61 : Ref sig .tc := ⟨.hbm, 94, rfl⟩
abbrev main_cst_21 : Ref sig .tc := ⟨.hbm, 95, rfl⟩
abbrev main_v62 : Ref sig .tc := ⟨.hbm, 96, rfl⟩
abbrev main_cst_22 : Ref sig .tc := ⟨.hbm, 97, rfl⟩
abbrev main_v63 : Ref sig .tc := ⟨.hbm, 98, rfl⟩

abbrev nD : Nat := 1
abbrev τ : Topo := Topo.v7x

variable {F : FTy → Type} [FloatOps F]

class Facts₀ : Prop where
  shapeCasts_S32x1048576_S33554432 : S32x1048576.ShapeCasts S33554432
  reducesTo_S33554432_S_d0 : S33554432.ReducesTo [0] S_
  h_S_ : 0 < S_.numel
  bcast_S_S33554432 : S_.BroadcastsInDim S33554432 (![] : Fin 0 → Fin S33554432.rank)
  bcast_S_S10 : S_.BroadcastsInDim S10 (![] : Fin 0 → Fin S10.rank)
  bcast_S33554432_S33554432x1_0 : S33554432.BroadcastsInDim S33554432x1 (![0] : Fin 1 → Fin S33554432x1.rank)
  natLt_1_32 : 1 < 32
  reducesTo_S10_S_d0 : S10.ReducesTo [0] S_
  scatter_S10_S33554432x1_S33554432_n_0_0_1_wf : ScatterDims.WF S10 S33554432x1 S33554432 [] [0] [0] 1
  gather_S10_S33554432x1_S33554432_n_0_n_n_0_1_1_wf : GatherDims.WF S10 S33554432x1 S33554432 [] [0] [] [0] [] 1 ![1]

variable [Facts₀]

def scatter_S10_S33554432x1_S33554432_n_0_0_1 : ScatterDims S10 S33554432x1 S33554432 where
  updateWindowDims := []
  insertedWindowDims := [0]
  scatterDimsToOperandDims := [0]
  indexVectorDim := 1
  wf := scatter_S10_S33554432x1_S33554432_n_0_0_1_wf
def gather_S10_S33554432x1_S33554432_n_0_n_n_0_1_1 : GatherDims S10 S33554432x1 S33554432 where
  offsetDims := []
  collapsedSliceDims := [0]
  operandBatchingDims := []
  startIndicesBatchingDims := []
  startIndexMap := [0]
  indexVectorDim := 1
  sliceSizes := ![1]
  wf := gather_S10_S33554432x1_S33554432_n_0_n_n_0_1_1_wf

class Facts : Prop extends Facts₀ where

variable [Facts]
-- ==== Proof.Spec.lean ====
import Idealize.ShloMosaic.PureOps.Ideal

/-!
# The histogram-weighted Dice loss, as one function of three arrays

Over any finite index type: three arrays `p` (predictions), `t` (targets) and `l` (label weights) of extended
reals. With `I = ∑ p·t` and `S = ∑ p + ∑ t`, every element has a gap `g = |2·I/S · p − t|`; an element is *valid*
when `l > 0` and *in range* when moreover `g < 1.000001`; its bin is `⌊10·g⌋` as a 32-bit word, clamped into
`0 … 9`. The ten bin counts are the numbers of in-range elements per bin. An in-range element weighs
`max(#valid, 1) / max(count of its bin, 1)`, divided by the number of non-empty bins (at least one), every other
element nothing, and the loss is `1 − (∑ 2·p·t·weight) / S`.

Every operation is the exact one on the extended reals; the float literals stay as the words they are printed as
and are never evaluated, except the zero word.
-/

noncomputable section

namespace HistDice

open Idealize.ShloMosaic

/-- `1.0`, `2.0`, `10.0` and `1.000001` as the f32 words both programs spell. -/
abbrev one : EReal := Ideal.ofBits .f32 0x3F800000#32
abbrev two : EReal := Ideal.ofBits .f32 0x40000000#32
abbrev ten : EReal := Ideal.ofBits .f32 0x41200000#32
abbrev edge : EReal := Ideal.ofBits .f32 0x3F800008#32

/-- A one-bit word as the number 0 or 1. -/
def bitVal (b : BitVec 1) : EReal := ((b.toNat : ℝ) : EReal)

/-- The label weight is positive. -/
def validBit (l : EReal) : BitVec 1 := Ideal.cmp .ogt l 0

/-- The gap `|ρ·p − t|` (the absolute value as the larger of a number and its negative). -/
def gap (ρ p t : EReal) : EReal := max (ρ * p - t) (-(ρ * p - t))

/-- Valid, and the gap below the top edge. -/
def inBit (ρ p t l : EReal) : BitVec 1 := IntOp.andi (validBit l) (Ideal.cmp .olt (gap ρ p t) edge)

/-- The bin: `⌊10·gap⌋` converted to a signed 32-bit word, clamped into `0 … 9`. -/
def binOf (ρ p t : EReal) : BitVec 32 :=
  IntOp.minsi 9#32 (IntOp.maxsi 0#32 (Ideal.fptosi 32 (Ideal.liftRound Int.floor (gap ρ p t * ten))))

/-- The count of bin `b` out of ten, chosen by comparing the word with `0, 1, …, 9` in turn, a later match
    overriding an earlier one; `0` for a word that is none of them. -/
def pick (cs : Fin 10 → EReal) (b : BitVec 32) : EReal :=
  if b = 9#32 then cs 9 else if b = 8#32 then cs 8 else if b = 7#32 then cs 7 else if b = 6#32 then cs 6
  else if b = 5#32 then cs 5 else if b = 4#32 then cs 4 else if b = 3#32 then cs 3 else if b = 2#32 then cs 2
  else if b = 1#32 then cs 1 else if b = 0#32 then cs 0 else 0

/-- One element's weight: `τ / max(count of its bin, 1)` if in range, else `0`; divided by `ν`. -/
def weight (ρ τ ν : EReal) (cs : Fin 10 → EReal) (p t l : EReal) : EReal :=
  Ideal.div (if inBit ρ p t l = 1#1 then Ideal.div τ (max (pick cs (binOf ρ p t)) one) else 0) ν

/-- One element's term of the weighted sum. -/
def term (ρ τ ν : EReal) (cs : Fin 10 → EReal) (p t l : EReal) : EReal := two * p * t * weight ρ τ ν cs p t l

section sums

variable {ι : Type} [Fintype ι]

/-- The sum of an array. -/
def total (x : ι → EReal) : EReal := ∑ i, x i
/-- `∑ p·t`. -/
def dotPT (p t : ι → EReal) : EReal := ∑ i, p i * t i
/-- The number of valid elements. -/
def validCount (l : ι → EReal) : EReal := ∑ i, bitVal (validBit (l i))
/-- The number of in-range elements of bin `b`, at ratio `ρ`. -/
def count (p t l : ι → EReal) (ρ : EReal) (b : Fin 10) : EReal :=
  ∑ i, if binOf ρ (p i) (t i) = BitVec.ofNat 32 b.val then bitVal (inBit ρ (p i) (t i) (l i)) else 0
/-- The weighted sum at given ratio, valid total, non-empty count and bin counts. -/
def weighted (p t l : ι → EReal) (ρ τ ν : EReal) (cs : Fin 10 → EReal) : EReal :=
  ∑ i, term ρ τ ν cs (p i) (t i) (l i)

/-- `S = ∑ p + ∑ t`. -/
def denom (p t : ι → EReal) : EReal := total p + total t
/-- `2·I / S`. -/
def ratio (p t : ι → EReal) : EReal := Ideal.div (two * dotPT p t) (denom p t)
/-- `max(#valid, 1)`. -/
def validTotal (l : ι → EReal) : EReal := max (validCount l) one

end sums

/-- The number of positive counts among ten, at least one. -/
def nonempty (cs : Fin 10 → EReal) : EReal := max (∑ b : Fin 10, bitVal (Ideal.cmp .ogt (cs b) 0)) one

/-- The loss. -/
def loss {ι : Type} [Fintype ι] (p t l : ι → EReal) : EReal :=
  (one - Ideal.div (weighted p t l (ratio p t) (validTotal l) (nonempty (count p t l (ratio p t)))
      (count p t l (ratio p t))) (denom p t)) * one

/-! ## The loss does not depend on how the elements are indexed -/

section reindex

variable {ι κ : Type} [Fintype ι] [Fintype κ] (e : κ ≃ ι) (p t l : ι → EReal)

theorem total_comp (x : ι → EReal) : total (fun k => x (e k)) = total x := Equiv.sum_comp e x
theorem dotPT_comp : dotPT (fun k => p (e k)) (fun k => t (e k)) = dotPT p t :=
  Equiv.sum_comp e (fun i => p i * t i)
theorem validCount_comp : validCount (fun k => l (e k)) = validCount l :=
  Equiv.sum_comp e (fun i => bitVal (validBit (l i)))
theorem count_comp (ρ : EReal) (b : Fin 10) :
    count (fun k => p (e k)) (fun k => t (e k)) (fun k => l (e k)) ρ b = count p t l ρ b :=
  Equiv.sum_comp e (fun i => if binOf ρ (p i) (t i) = BitVec.ofNat 32 b.val then bitVal (inBit ρ (p i) (t i) (l i)) else 0)
theorem weighted_comp (ρ τ ν : EReal) (cs : Fin 10 → EReal) :
    weighted (fun k => p (e k)) (fun k => t (e k)) (fun k => l (e k)) ρ τ ν cs = weighted p t l ρ τ ν cs :=
  Equiv.sum_comp e (fun i => term ρ τ ν cs (p i) (t i) (l i))

/-- Re-indexing all three arrays by one bijection leaves the loss unchanged. -/
theorem loss_comp : loss (fun k => p (e k)) (fun k => t (e k)) (fun k => l (e k)) = loss p t l := by
  have hd : denom (fun k => p (e k)) (fun k => t (e k)) = denom p t := by
    unfold denom; rw [total_comp e p, total_comp e t]
  have hr : ratio (fun k => p (e k)) (fun k => t (e k)) = ratio p t := by
    unfold ratio; rw [dotPT_comp e p t, hd]
  have hv : validTotal (fun k => l (e k)) = validTotal l := by
    unfold validTotal; rw [validCount_comp e l]
  have hc : count (fun k => p (e k)) (fun k => t (e k)) (fun k => l (e k)) (ratio p t) = count p t l (ratio p t) :=
    funext fun b => count_comp e p t l _ b
  unfold loss
  rw [hr, hd, hv, hc, weighted_comp e p t l]

end reindex

end HistDice

end
-- ==== Proof.LibTileSums.lean ====
import Idealize.ShloMosaic.PureOps.Ideal
import Mathlib.Logic.Equiv.Fin.Basic
import Mathlib.Data.Fintype.BigOperators
import Mathlib.Algebra.BigOperators.Fin

/-!
Sums over the extended reals, reindexed.

Three facts about finite sums in a commutative additive monoid with a multiplication that has a
zero and a one, stated at the extended reals and over plain `Fin`-indexed functions:

* a sum over `A * B` positions is the sum over `A` tiles of the sums over the `B` positions of each
  tile (`sum_tiles`);
* an accumulator that starts from `0 + s 0` and adds `s (j + 1)` at each later step holds the sum of
  the terms seen so far (`fold_eq_sum` and its variants);
* a sum weighted by the indicator of one position picks out that position's term, or is `0` when
  the position lies outside the range (`onehot_sum`, `onehot_sum'`).

Nothing here asks a term to be finite: only associativity and commutativity of `+`, `0 + x = x`,
`0 * x = 0` and `1 * x = x` are used.
-/

namespace Cert.LibTileSums

open scoped BigOperators

/-! ### Tiles -/

/-- Position `r` of tile `i` lies below `A * B`. -/
theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

/-- A sum over `n = A * B` positions, tile by tile: tile `i` holds the positions `i * B + r`. -/
theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

/-- The same with the tile sums named: if `g i` is the sum over tile `i`, the sum of the `g i` is the
    whole sum. -/
theorem sum_tiles_of {A B n : ℕ} (h : A * B = n) (f : Fin n → EReal) (g : Fin A → EReal)
    (hg : ∀ i : Fin A, g i = ∑ r : Fin B, f ⟨i.val * B + r.val, tile_lt h i r⟩) :
    ∑ i : Fin A, g i = ∑ k : Fin n, f k := by
  rw [← sum_tiles h f]
  exact Finset.sum_congr rfl fun i _ => hg i

/-! ### The running sum -/

/-- `0 + x = x`. -/
theorem zero_add_eq (x : EReal) : 0 + x = x := zero_add x

/-- The accumulator by recursion: `0 + s 0` at the first step, the previous value plus the next term
    after it. -/
noncomputable def accum (s : ℕ → EReal) : ℕ → EReal
  | 0 => 0 + s 0
  | j + 1 => accum s j + s (j + 1)

@[simp] theorem accum_zero (s : ℕ → EReal) : accum s 0 = 0 + s 0 := rfl

@[simp] theorem accum_succ (s : ℕ → EReal) (j : ℕ) : accum s (j + 1) = accum s j + s (j + 1) := rfl

/-- The accumulator after step `j` is the sum of the terms `0 … j`. -/
theorem accum_eq_sum (s : ℕ → EReal) (j : ℕ) : accum s j = ∑ k : Fin (j + 1), s k.val := by
  induction j with
  | zero => simp
  | succ j ih =>
    rw [accum_succ, ih, Fin.sum_univ_castSucc (f := fun k : Fin (j + 1 + 1) => s k.val)]
    rfl

/-- Any family that obeys the recursion up to step `m` is the running sum there: if
    `acc 0 = 0 + s 0` and `acc (j + 1) = acc j + s (j + 1)` for `j + 1 < m`, then
    `acc j = ∑ k : Fin (j + 1), s k` for `j < m`. -/
theorem fold_eq_sum (s acc : ℕ → EReal) (m : ℕ) (h0 : acc 0 = 0 + s 0)
    (hs : ∀ j, j + 1 < m → acc (j + 1) = acc j + s (j + 1)) :
    ∀ j, j < m → acc j = ∑ k : Fin (j + 1), s k.val := by
  intro j
  induction j with
  | zero => intro _; rw [h0]; simp
  | succ j ih =>
    intro hj
    rw [hs j hj, ih (Nat.lt_of_succ_lt hj),
      Fin.sum_univ_castSucc (f := fun k : Fin (j + 1 + 1) => s k.val)]
    rfl

/-- The last step of `fold_eq_sum`: after `m + 1` steps the accumulator holds the whole sum. -/
theorem fold_last (s acc : ℕ → EReal) (m : ℕ) (h0 : acc 0 = 0 + s 0)
    (hs : ∀ j, j + 1 < m + 1 → acc (j + 1) = acc j + s (j + 1)) :
    acc m = ∑ k : Fin (m + 1), s k.val :=
  fold_eq_sum s acc (m + 1) h0 hs m (Nat.lt_succ_self m)

/-- The same over `Fin`-indexed steps and terms. -/
theorem fold_fin_eq_sum {m : ℕ} (s acc : Fin (m + 1) → EReal) (h0 : acc 0 = 0 + s 0)
    (hs : ∀ j : Fin m, acc j.succ = acc j.castSucc + s j.succ) :
    acc (Fin.last m) = ∑ k : Fin (m + 1), s k := by
  let s' : ℕ → EReal := fun k => if hk : k < m + 1 then s ⟨k, hk⟩ else 0
  let acc' : ℕ → EReal := fun k => if hk : k < m + 1 then acc ⟨k, hk⟩ else 0
  have h0' : acc' 0 = 0 + s' 0 := by
    simp only [acc', s', Nat.zero_lt_succ, dite_true]
    exact h0
  have hs' : ∀ j, j + 1 < m + 1 → acc' (j + 1) = acc' j + s' (j + 1) := by
    intro j hj
    have hj' : j < m + 1 := Nat.lt_of_succ_lt hj
    simp only [acc', s', hj, hj', dite_true]
    exact hs ⟨j, Nat.lt_of_succ_lt_succ hj⟩
  have h := fold_last s' acc' m h0' hs'
  simp only [acc', s', Nat.lt_succ_self, dite_true] at h
  rw [show Fin.last m = ⟨m, Nat.lt_succ_self m⟩ from rfl, h]
  exact Finset.sum_congr rfl fun k _ => by simp [k.isLt]

/-! ### One position picked out -/

/-- A 32-bit word equals the word of a number below `2 ^ 32` exactly when its value is that number. -/
theorem eq_ofNat_iff (w : BitVec 32) {k : ℕ} (hk : k < 2 ^ 32) :
    w = BitVec.ofNat 32 k ↔ w.toNat = k := by
  constructor
  · intro h; rw [h, BitVec.toNat_ofNat, Nat.mod_eq_of_lt hk]
  · intro h; apply BitVec.eq_of_toNat_eq; rw [h, BitVec.toNat_ofNat, Nat.mod_eq_of_lt hk]

/-- The indicator-weighted sum with the term kept or replaced by `0`: it is the term at the word's
    value when that lies in range, and `0` otherwise. -/
theorem onehot_sum' {n : ℕ} (hn : n ≤ 2 ^ 32) (w : BitVec 32) (h : Fin n → EReal) :
    ∑ k : Fin n, (if w = BitVec.ofNat 32 k.val then h k else 0)
      = if hw : w.toNat < n then h ⟨w.toNat, hw⟩ else 0 := by
  have key : ∀ k : Fin n, w = BitVec.ofNat 32 k.val ↔ w.toNat = k.val := fun k =>
    eq_ofNat_iff w (Nat.lt_of_lt_of_le k.isLt hn)
  by_cases hw : w.toNat < n
  · rw [dif_pos hw, Finset.sum_eq_single (⟨w.toNat, hw⟩ : Fin n)]
    · rw [if_pos ((key _).2 rfl)]
    · intro k _ hk
      rw [if_neg]
      intro hwk
      exact hk (Fin.ext ((key k).1 hwk).symm)
    · intro hmem; exact absurd (Finset.mem_univ _) hmem
  · rw [dif_neg hw]
    refine Finset.sum_eq_zero fun k _ => ?_
    rw [if_neg]
    intro hwk
    exact hw (((key k).1 hwk) ▸ k.isLt)

/-- The indicator-weighted sum with the indicator as a factor `1` or `0`. -/
theorem onehot_sum {n : ℕ} (hn : n ≤ 2 ^ 32) (w : BitVec 32) (h : Fin n → EReal) :
    ∑ k : Fin n, (if w = BitVec.ofNat 32 k.val then (1 : EReal) else 0) * h k
      = if hw : w.toNat < n then h ⟨w.toNat, hw⟩ else 0 := by
  rw [← onehot_sum' hn w h]
  refine Finset.sum_congr rfl fun k _ => ?_
  by_cases hk : w = BitVec.ofNat 32 k.val
  · rw [if_pos hk, if_pos hk, one_mul]
  · rw [if_neg hk, if_neg hk, zero_mul]

/-- The factor on the right. -/
theorem onehot_sum_right {n : ℕ} (hn : n ≤ 2 ^ 32) (w : BitVec 32) (h : Fin n → EReal) :
    ∑ k : Fin n, h k * (if w = BitVec.ofNat 32 k.val then (1 : EReal) else 0)
      = if hw : w.toNat < n then h ⟨w.toNat, hw⟩ else 0 := by
  rw [← onehot_sum hn w h]
  exact Finset.sum_congr rfl fun k _ => mul_comm _ _

end Cert.LibTileSums
-- ==== Proof.KBlock.lean ====
import proofs.«149772_j55929064129141_1_alg».proof.Proof.Gen.KernelIdeal
import proofs.«149772_j55929064129141_1_alg».proof.Proof.Spec
import proofs.«149772_j55929064129141_1_alg».proof.Proof.LibTileSums
import Idealize.ShloMosaic.Lib.ValueIdx
import Idealize.ShloMosaic.Lib.Pipeline.Value
import Idealize.ShloMosaic.PureOps.Ideal.Laws

/-!
Facts every one of the three kernels uses: the body's sum of a whole `32 × 16384` block, the sixty-four column
blocks of a `32 × 1048576` array as one sum, a lane's number, and a one-bit word widened and converted.
-/

noncomputable section

namespace Cert.KernelIdeal.KBlock

open Cert.KernelIdeal Idealize.ShloMosaic Idealize.ShloMosaic.ValueIdx HistDice

/-- The body sums a block along its lanes, then along its rows, and takes the one element out: the sum of all the
    block's elements. The row sums sit in a `1 × 32` vector whose entry `(0, r)` is row `r`'s sum; the second
    reduction adds those thirty-two; both changes of shape only add a leading axis of extent one. -/
theorem blockSum_eq (x : S32x16384.Idx → EReal) (h1 : S32x16384.Reduces [1] S32) (hc1 : S32.ShapeCasts S1x32)
    (h2 : S1x32.Reduces [1] S1) (hc2 : S1.ShapeCasts S1x1) (hp : ∀ a, (![0, 0] : Fin 2 → Nat) a < S1x1.size a)
    (hφ : FKind.Formats .f32) (ha1 : (0x00000000#32 : BitVec 32) = FKind.add.neutral .f32 hφ)
    (ha2 : (0x00000000#32 : BitVec 32) = FKind.add.neutral .f32 hφ) :
    extractAt ![0, 0] (shapeCast S1x1 (multiReduction (F := Ideal) .add [1] S1 (shapeCast S1x32
      (multiReduction (F := Ideal) .add [1] S32 x 0x00000000#32 h1 hφ ha1) hc1)
      0x00000000#32 h2 hφ ha2) hc2) hp
      = ∑ r : Fin 32, ∑ l : Fin 16384, x (ix2 r l) := by
  unfold extractAt
  rw [shapeCast_apply _ hc2 _ (ix1 (0 : Fin 1)) (by rw [Shape.rowMajor_val_one, Shape.rowMajor_val_two]; rfl)]
  rw [Ideal.multiReduction_add_single]
  refine Finset.sum_congr rfl fun k _ => ?_
  rw [shapeCast_apply _ hc1 _ (ix1 (k : Fin 32)) (by
    rw [Shape.rowMajor_val_one, Shape.rowMajor_val_two]
    show k.val = (h2.lift (ix1 0) k 0).val * 32 + (h2.lift (ix1 0) k 1).val
    have e0 : (h2.lift (ix1 0) k 0).val = 0 := rfl
    have e1 : (h2.lift (ix1 0) k 1).val = k.val := rfl
    rw [e0, e1]; omega)]
  rw [Ideal.multiReduction_add_single]
  refine Finset.sum_congr rfl fun l _ => congrArg x ?_
  funext a
  match a with
  | ⟨0, _⟩ => rfl
  | ⟨1, _⟩ => rfl

/-- Column `l` of column block `t`. -/
abbrev colAt (t : Fin 64) (l : Fin 16384) : Fin 1048576 := ⟨t.val * 16384 + l.val, by omega⟩

/-- The sixty-four column blocks make up the array: block by block, row by row, lane by lane is every element once
    (each row's `1048576` columns are sixty-four tiles of `16384`). -/
theorem sum_blocks (f : S32x1048576.Idx → EReal) :
    ∑ t : Fin 64, ∑ r : Fin 32, ∑ l : Fin 16384, f (ix2 r (colAt t l)) = ∑ i : S32x1048576.Idx, f i := by
  rw [show (∑ i : S32x1048576.Idx, f i) = ∑ r : Fin 32, ∑ c : Fin 1048576, f (ix2 r c) from sum_idx2 f]
  rw [Finset.sum_comm]
  refine Finset.sum_congr rfl fun r _ => ?_
  exact Cert.LibTileSums.sum_tiles (A := 64) (B := 16384) (n := 1048576) (by norm_num) (fun c => f (ix2 r c))

/-- Lane `j` of the lane counter holds `j`. -/
theorem iota_lane (h : S1x128.Iotas .tc 32 [1]) (j : Fin 128) : iota .tc S1x128 32 [1] h (ix2 0 j) = BitVec.ofNat 32 j.val := by
  unfold iota
  simp

/-- A one-bit word widened to 32 bits and converted as a signed integer is 0 or 1. -/
theorem bit_sitofp (b : BitVec 1) : (FloatOps.sitofp (F := Ideal) .f32 (b.setWidth 32) : EReal) = bitVal b := by
  show (((b.setWidth 32).toInt : ℝ) : EReal) = ((b.toNat : ℝ) : EReal)
  have : ∀ b : BitVec 1, (b.setWidth 32).toInt = (b.toNat : ℤ) := by decide
  rw [this b]; simp

/-- A one-bit word converted as an unsigned integer is 0 or 1. -/
theorem bit_uitofp (b : BitVec 1) : (FloatOps.uitofp (F := Ideal) .f32 b : EReal) = bitVal b := rfl

end Cert.KernelIdeal.KBlock

end
-- ==== Proof.Region0.lean ====
import proofs.«149772_j55929064129141_1_alg».proof.Proof.Gen.KernelIdeal.Frame
import proofs.«149772_j55929064129141_1_alg».proof.Proof.Spec
import proofs.«149772_j55929064129141_1_alg».proof.Proof.KBlock
import Idealize.ShloMosaic.Lib.ValueIdx
import Idealize.ShloMosaic.Lib.Pipeline.Value
import Idealize.ShloMosaic.PureOps.Ideal.Laws
import Idealize.ShloMosaic.Lib.Tactic
import Idealize.ShloMosaic.Lib.StableHlo.Predicate

noncomputable section

namespace Cert.KernelIdeal.Region0

open Cert.KernelIdeal Cert.KernelIdeal.Gen Idealize.ShloMosaic Idealize.ShloMosaic.TcCoe Idealize.SL.Sem
open Idealize.ShloMosaic.ValueIdx HistDice
open Idealize.ShloMosaic.Pipeline (Dat)

/-! ## What each case of the body leaves in the output block

Generic in the float family: the block after the body is the body's one covering store, whose payload reads the three
loaded blocks and the block as it stood before (points 1 to 63), or the zero block the body itself has just stored
(point 0). -/

section pieces
variable {F : FTy → Type} [FloatOps F]

theorem hz : (![0, 0] : Fin 2 → Nat) = fun _ => 0 := funext fun a => by fin_cases a <;> rfl

/-- The lane counter the body builds. -/
abbrev lanes : IVec S1x128 32 := iota .tc S1x128 32 [1] iota_S1x128_d1_w32

/-- Points 1 to 63: the block xo the point before left, plus this point's lane vector. -/
theorem out_B (c : Dev nD) (i : grid0.Coords)
    (a1 : Memref sig .tc .vmem S32x16384 .f32) (h1 : a1.IsWhole) (a2 : Memref sig .tc .vmem S32x16384 .f32) (h2 : a2.IsWhole)
    (a3 : Memref sig .tc .vmem S32x16384 .f32) (h3 : a3.IsWhole) (a4 : Memref sig .tc .vmem S1x128 .f32) (h4 : a4.IsWhole)
    (hc : ¬cond0_0 i) (x0 x1 x2 : Vec F S32x16384 .f32) (xo : Vec F S1x128 .f32) :
    out0_B_3 c i a1 h1 a2 h2 a3 h3 a4 h4 hc x0 x1 x2 xo
      = k0_pay1 (k0_pay3 x1) (k0_pay4 x0 x1) (k0_pay5 x2) lanes (k0_pay6 x0) k0_pay7 xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz]
  simp only [View.readAt_eq_ld, h1.read_unread, h2.read_unread, h3.read_unread, h4.read_unread,
    View.ld_unit_zero (S := S32x16384) hz, View.ld_unit_zero (S := S1x128) hz, shapeCast_self]

/-- Point 0: the same over the zero block, which the body stores first and reads back. -/
theorem out_A (c : Dev nD) (i : grid0.Coords)
    (a1 : Memref sig .tc .vmem S32x16384 .f32) (h1 : a1.IsWhole) (a2 : Memref sig .tc .vmem S32x16384 .f32) (h2 : a2.IsWhole)
    (a3 : Memref sig .tc .vmem S32x16384 .f32) (h3 : a3.IsWhole) (a4 : Memref sig .tc .vmem S1x128 .f32) (h4 : a4.IsWhole)
    (hc : cond0_0 i) (x0 x1 x2 : Vec F S32x16384 .f32) :
    out0_A_3 c i a1 h1 a2 h2 a3 h3 a4 h4 hc x0 x1 x2
      = k0_pay1 (k0_pay3 x1) (k0_pay4 x0 x1) (k0_pay5 x2) lanes (k0_pay6 x0) k0_pay7 (k0_pay2 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x128) hz]
  simp only [View.readCov_unit_zero (S := S1x128) _ hz, View.readAt_eq_ld, h1.read_unread, h2.read_unread, h3.read_unread,
    View.ld_unit_zero (S := S32x16384) hz, View.ld_unit_zero (S := S1x128) hz, shapeCast_self]

end pieces

section lanes

/-- The sum of a block's entries, row by row, lane by lane. -/
def sumBlk (x : S32x16384.Idx → EReal) : EReal := ∑ r : Fin 32, ∑ l : Fin 16384, x (ix2 r l)

/-- What one point adds at lane j: the sum of the P block at lane 0, of the T block at lane 1, of the products at
    lane 2, the number of positive L entries at lane 3, nothing elsewhere. -/
def laneAdd (x0 x1 x2 : S32x16384.Idx → EReal) (j : Fin 128) : EReal :=
  if j.val = 3 then sumBlk (fun i => bitVal (validBit (x2 i)))
  else if j.val = 2 then sumBlk (fun i => x0 i * x1 i)
  else if j.val = 1 then sumBlk x1
  else if j.val = 0 then sumBlk x0 else 0

/-- Comparing the lane's number with a small constant word decides whether the lane is that one. -/
theorem sel_lane (j : Fin 128) (k : Nat) (hk : k < 128) (a b : EReal) :
    Scalar.select (IntOp.cmpi .eq (BitVec.ofNat 32 j.val) (BitVec.ofNat 32 k)) a b = if j.val = k then a else b := by
  have hj : j.val < 128 := j.isLt
  have e : (IntOp.cmpi .eq (BitVec.ofNat 32 j.val) (BitVec.ofNat 32 k) = 1#1) ↔ j.val = k := by
    rw [StableHlo.Predicate.cmpi_eq_iff]
    constructor
    · intro h
      have := congrArg BitVec.toNat h
      simp only [BitVec.toNat_ofNat] at this
      omega
    · intro h; rw [h]
  unfold Scalar.select
  by_cases h : j.val = k
  · exact (if_pos (e.mpr h)).trans (if_pos h).symm
  · exact (if_neg (fun h' => h (e.mp h'))).trans (if_neg h).symm

/-- The zero block the first point stores reads zero at every lane. -/
theorem pay2_lane (j : Fin 128) : k0_pay2 (F := Ideal) (ix2 0 j) = 0 := by
  unfold k0_pay2
  exact Ideal.ofBits_zero_f32

/-- The body's lane sum, row sum and extraction of a block, as the sum of the block. -/
theorem blockSum_sumBlk (x : S32x16384.Idx → EReal) (h1 : S32x16384.Reduces [1] S32) (hc1 : S32.ShapeCasts S1x32)
    (h2 : S1x32.Reduces [1] S1) (hc2 : S1.ShapeCasts S1x1) (hp : ∀ a, (![0, 0] : Fin 2 → Nat) a < S1x1.size a)
    (hφ : FKind.Formats .f32) (ha1 : (0x00000000#32 : BitVec 32) = FKind.add.neutral .f32 hφ)
    (ha2 : (0x00000000#32 : BitVec 32) = FKind.add.neutral .f32 hφ) :
    extractAt ![0, 0] (shapeCast S1x1 (multiReduction (F := Ideal) .add [1] S1 (shapeCast S1x32
      (multiReduction (F := Ideal) .add [1] S32 x 0x00000000#32 h1 hφ ha1) hc1)
      0x00000000#32 h2 hφ ha2) hc2) hp = sumBlk x :=
  KBlock.blockSum_eq x h1 hc1 h2 hc2 hp hφ ha1 ha2

theorem pay3_eq (x : FVec Ideal S32x16384 .f32) : k0_pay3 (F := Ideal) x = sumBlk x := by
  unfold k0_pay3
  exact blockSum_sumBlk x _ _ _ _ _ _ _ _

theorem pay4_eq (x0 x1 : FVec Ideal S32x16384 .f32) : k0_pay4 (F := Ideal) x0 x1 = sumBlk (fun i => x0 i * x1 i) := by
  unfold k0_pay4
  exact (blockSum_sumBlk (mulf (F := Ideal) (s := S32x16384) (φ := .f32) x0 x1) _ _ _ _ _ _ _ _).trans
    (congrArg sumBlk (funext fun i => mulf_apply (s := S32x16384) (φ := .f32) x0 x1 i))

/-- One entry's validity as the body computes it: the comparison with zero, widened and converted, is the bit's number. -/
theorem valid_elt (x2 : FVec Ideal S32x16384 .f32) (i : S32x16384.Idx) :
    (sitofp (F := Ideal) .f32 (extui 32 (cmpf (F := Ideal) (φ := .f32) .ogt x2 (broadcast S32x16384 (Scalar.ofBits (F := Ideal) .f32 0x00000000#32))) natLt_1_32)
      : FVec Ideal S32x16384 .f32) i = bitVal (validBit (x2 i)) := by
  show FloatOps.sitofp (F := Ideal) .f32 ((Ideal.cmp .ogt (x2 i) (Ideal.ofBits .f32 0x00000000#32)).setWidth 32) = _
  rw [KBlock.bit_sitofp, Ideal.ofBits_zero_f32]
  rfl

theorem pay5_eq (x2 : FVec Ideal S32x16384 .f32) : k0_pay5 (F := Ideal) x2 = sumBlk (fun i => bitVal (validBit (x2 i))) := by
  unfold k0_pay5
  exact (blockSum_sumBlk _ _ _ _ _ _ _ _ _).trans (congrArg sumBlk (funext fun i => valid_elt x2 i))

end lanes
section payloadShape
variable {F : FTy → Type} [FloatOps F]

/-- The innermost choice of the lane vector: the P block's sum at lane 0, zero elsewhere. -/
theorem pay6_struct (x0 : Vec F S32x16384 .f32) :
    k0_pay6 x0 = select (cmpi .eq lanes (broadcast S1x128 0#32)) (broadcast S1x128 (k0_pay3 x0))
      (broadcast S1x128 (Scalar.ofBits (F := F) .f32 0x00000000#32)) := rfl

/-- The update: the block as it stood, plus the lane vector chosen lane by lane. -/
theorem pay1_struct (v15 v21 v30 : F .f32) (v31 : IVec S1x128 32) (v36 : FVec F S1x128 .f32) (v37 : IVec S1x128 32)
    (v49 : Vec F S1x128 .f32) :
    k0_pay1 v15 v21 v30 v31 v36 v37 v49
      = addf (shapeCast S1x128 v49 shapeCasts_S1x128_S1x128)
          (select (cmpi .eq v31 (broadcast S1x128 3#32)) (broadcast S1x128 v30)
            (select (cmpi .eq v31 (broadcast S1x128 2#32)) (broadcast S1x128 v21)
              (select (cmpi .eq v31 v37) (broadcast S1x128 v15) v36))) := rfl

theorem pay7_struct : k0_pay7 = broadcast S1x128 1#32 := rfl

end payloadShape
section lanes

/-- Lane j of the lane counter holds j. -/
theorem lanes_apply (j : Fin 128) : lanes (ix2 0 j) = BitVec.ofNat 32 j.val := KBlock.iota_lane _ j

/-- The innermost choice read at a lane, for any scalar in the P sum's place. -/
theorem sel0_apply (s : EReal) (j : Fin 128) :
    (select (cmpi .eq lanes (broadcast S1x128 0#32)) (broadcast S1x128 s)
      (broadcast S1x128 (Scalar.ofBits (F := Ideal) .f32 0x00000000#32)) : FVec Ideal S1x128 .f32) (ix2 0 j)
      = if j.val = 0 then s else 0 := by
  show Scalar.select (IntOp.cmpi .eq (lanes (ix2 0 j)) (BitVec.ofNat 32 0)) s (Ideal.ofBits .f32 0x00000000#32) = _
  rw [lanes_apply, sel_lane j 0 (by omega), Ideal.ofBits_zero_f32]

theorem pay6_lane (x0 : FVec Ideal S32x16384 .f32) (j : Fin 128) :
    k0_pay6 (F := Ideal) x0 (ix2 0 j) = if j.val = 0 then sumBlk x0 else 0 := by
  rw [pay6_struct, sel0_apply, pay3_eq]

/-- The update read at a lane, for any scalars in the three sums' places and any innermost vector. -/
theorem pay1_apply (v15 v21 v30 : EReal) (v36 : FVec Ideal S1x128 .f32) (xo : FVec Ideal S1x128 .f32) (j : Fin 128) :
    k0_pay1 (F := Ideal) v15 v21 v30 lanes v36 k0_pay7 xo (ix2 0 j)
      = xo (ix2 0 j) + (if j.val = 3 then v30 else if j.val = 2 then v21 else if j.val = 1 then v15 else v36 (ix2 0 j)) := by
  rw [pay1_struct, pay7_struct, shapeCast_self]
  show xo (ix2 0 j) + Scalar.select (IntOp.cmpi .eq (lanes (ix2 0 j)) (BitVec.ofNat 32 3)) v30
    (Scalar.select (IntOp.cmpi .eq (lanes (ix2 0 j)) (BitVec.ofNat 32 2)) v21
      (Scalar.select (IntOp.cmpi .eq (lanes (ix2 0 j)) (BitVec.ofNat 32 1)) v15 (v36 (ix2 0 j)))) = _
  rw [lanes_apply, sel_lane j 3 (by omega), sel_lane j 2 (by omega), sel_lane j 1 (by omega)]

/-- The body's update read at one lane: what the block held there, plus the point's lane value. -/
theorem pay1_lane (x0 x1 x2 : FVec Ideal S32x16384 .f32) (xo : FVec Ideal S1x128 .f32) (j : Fin 128) :
    k0_pay1 (F := Ideal) (k0_pay3 x1) (k0_pay4 x0 x1) (k0_pay5 x2) lanes (k0_pay6 x0) k0_pay7 xo (ix2 0 j)
      = xo (ix2 0 j) + laneAdd x0 x1 x2 j := by
  rw [pay1_apply, pay6_lane, pay3_eq, pay4_eq, pay5_eq]
  unfold laneAdd
  rfl

end lanes

variable (V : (c : Dev nD) → (b : Ref sig .tc) → Buf (Elt Ideal) ((c : Thread nD τ).loc b))

/-- The three arrays as the region finds them, and the output array as it leaves it. -/
abbrev arrP (c : Dev nD) : S32x1048576.Idx → EReal := V c (Pipeline.arrRef spec0 0)
abbrev arrT (c : Dev nD) : S32x1048576.Idx → EReal := V c (Pipeline.arrRef spec0 1)
abbrev arrL (c : Dev nD) : S32x1048576.Idx → EReal := V c (Pipeline.arrRef spec0 2)
abbrev outArr (c : Dev nD) : S1x128.Idx → EReal := (dat0 (F := Ideal) V c).arrAt 3 cfg0.N

/-! ## An input block at a point is the array's column block -/

section blocks

/-- Each input window sits at row block 0 and at the column block of the point's number. -/
theorem idx0_0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx0_1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
theorem idx0_2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)

/-- A point's number as a column-block number. -/
abbrev colBlk (t : Fin cfg0.N) : Fin 64 := ⟨t.val, lt_of_lt_of_eq t.isLt N_0⟩

/-- The three input blocks at a point, at their literal type. -/
abbrev blkP (c : Dev nD) (t : Fin cfg0.N) : FVec Ideal S32x16384 .f32 := iblk0 (F := Ideal) V c 0 t
abbrev blkT (c : Dev nD) (t : Fin cfg0.N) : FVec Ideal S32x16384 .f32 := iblk0 (F := Ideal) V c 1 t
abbrev blkL (c : Dev nD) (t : Fin cfg0.N) : FVec Ideal S32x16384 .f32 := iblk0 (F := Ideal) V c 2 t

theorem blkP_apply (c : Dev nD) (t : Fin cfg0.N) (r : Fin 32) (l : Fin 16384) :
    blkP V c t (ix2 r l) = arrP V c (ix2 r (KBlock.colAt (colBlk t) l)) := by
  unfold blkP iblk0
  rw [View.read_apply]
  show V c (Pipeline.arrRef spec0 0) _ = V c (Pipeline.arrRef spec0 0) _
  congr 1
  funext a
  apply Fin.ext
  match a with
  | ⟨0, _⟩ => show win0_0.index t 0 * 32 + 1 * r.val = r.val; rw [(idx0_0 t).1]; omega
  | ⟨1, _⟩ => show win0_0.index t 1 * 16384 + 1 * l.val = t.val * 16384 + l.val; rw [(idx0_0 t).2]; omega

theorem blkT_apply (c : Dev nD) (t : Fin cfg0.N) (r : Fin 32) (l : Fin 16384) :
    blkT V c t (ix2 r l) = arrT V c (ix2 r (KBlock.colAt (colBlk t) l)) := by
  unfold blkT iblk0
  rw [View.read_apply]
  show V c (Pipeline.arrRef spec0 1) _ = V c (Pipeline.arrRef spec0 1) _
  congr 1
  funext a
  apply Fin.ext
  match a with
  | ⟨0, _⟩ => show win0_1.index t 0 * 32 + 1 * r.val = r.val; rw [(idx0_1 t).1]; omega
  | ⟨1, _⟩ => show win0_1.index t 1 * 16384 + 1 * l.val = t.val * 16384 + l.val; rw [(idx0_1 t).2]; omega

theorem blkL_apply (c : Dev nD) (t : Fin cfg0.N) (r : Fin 32) (l : Fin 16384) :
    blkL V c t (ix2 r l) = arrL V c (ix2 r (KBlock.colAt (colBlk t) l)) := by
  unfold blkL iblk0
  rw [View.read_apply]
  show V c (Pipeline.arrRef spec0 2) _ = V c (Pipeline.arrRef spec0 2) _
  congr 1
  funext a
  apply Fin.ext
  match a with
  | ⟨0, _⟩ => show win0_2.index t 0 * 32 + 1 * r.val = r.val; rw [(idx0_2 t).1]; omega
  | ⟨1, _⟩ => show win0_2.index t 1 * 16384 + 1 * l.val = t.val * 16384 + l.val; rw [(idx0_2 t).2]; omega

end blocks

/-! ## The output block after each point: the running sum of the points' lane vectors -/

section accumulate

/-- What point t adds at lane j. -/
def ptAdd (c : Dev nD) (t : Fin cfg0.N) (j : Fin 128) : EReal := laneAdd (blkP V c t) (blkT V c t) (blkL V c t) j

/-- After point 0 the block holds zero plus that point's lane vector. -/
theorem outsAt_zero (c : Dev nD) (h : 0 < cfg0.N) (j : Fin 128) :
    (outsAt0 (F := Ideal) V c 0 h : FVec Ideal S1x128 .f32) (ix2 0 j) = 0 + ptAdd V c ⟨0, h⟩ j := by
  refine (congrFun ((outsAt0_A V c ⟨0, h⟩ rfl).trans
    (out_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) ((hcond0_0 ⟨0, h⟩).mpr rfl) (blkP V c ⟨0, h⟩) (blkT V c ⟨0, h⟩) (blkL V c ⟨0, h⟩)))
    (ix2 0 j)).trans ?_
  refine (pay1_lane (blkP V c ⟨0, h⟩) (blkT V c ⟨0, h⟩) (blkL V c ⟨0, h⟩) (k0_pay2 (F := Ideal)) j).trans ?_
  exact congrArg (fun z => z + laneAdd (blkP V c ⟨0, h⟩) (blkT V c ⟨0, h⟩) (blkL V c ⟨0, h⟩) j) (pay2_lane j)

/-- After a later point the block holds what the point before left, plus that point's lane vector. -/
theorem outsAt_succ (c : Dev nD) (n : ℕ) (hn : n + 1 < cfg0.N) (j : Fin 128) :
    (outsAt0 (F := Ideal) V c (n + 1) hn : FVec Ideal S1x128 .f32) (ix2 0 j)
      = (outsAt0 (F := Ideal) V c n (Nat.lt_of_succ_lt hn) : FVec Ideal S1x128 .f32) (ix2 0 j) + ptAdd V c ⟨n + 1, hn⟩ j := by
  have hN : cfg0.N = 64 := N_0
  have hB : ¬(⟨n + 1, hn⟩ : Fin cfg0.N).val % 64 = 0 := by dsimp only; omega
  refine (congrFun ((outsAt0_B V c ⟨n + 1, hn⟩ hB).trans
    (out_B (F := Ideal) c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (ms0_3 ⟨n + 1, hn⟩) (hs0_3 ⟨n + 1, hn⟩)
      (fun h => hB ((hcond0_0 ⟨n + 1, hn⟩).mp h)) (blkP V c ⟨n + 1, hn⟩) (blkT V c ⟨n + 1, hn⟩) (blkL V c ⟨n + 1, hn⟩)
      (outsAt0 (F := Ideal) V c n (Nat.lt_of_succ_lt hn)))) (ix2 0 j)).trans ?_
  exact pay1_lane (blkP V c ⟨n + 1, hn⟩) (blkT V c ⟨n + 1, hn⟩) (blkL V c ⟨n + 1, hn⟩)
    (outsAt0 (F := Ideal) V c n (Nat.lt_of_succ_lt hn)) j

/-- So after point n the block holds, at every lane, the sum of the lane values of points 0 to n. -/
theorem outsAt_sum (c : Dev nD) (j : Fin 128) : ∀ (n : ℕ) (h : n < cfg0.N),
    (outsAt0 (F := Ideal) V c n h : FVec Ideal S1x128 .f32) (ix2 0 j)
      = ∑ k : Fin (n + 1), ptAdd V c ⟨k.val, lt_of_lt_of_le k.isLt (Nat.succ_le_of_lt h)⟩ j
  | 0, h => by
    rw [outsAt_zero V c h j, Fin.sum_univ_succ, Fin.sum_univ_zero, add_zero, zero_add]
    rfl
  | n + 1, h => by
    rw [outsAt_succ V c n h j, outsAt_sum c j n (Nat.lt_of_succ_lt h)]
    exact (Fin.sum_univ_castSucc
      (fun k : Fin (n + 1 + 1) => ptAdd V c ⟨k.val, lt_of_lt_of_le k.isLt (Nat.succ_le_of_lt h)⟩ j)).symm

end accumulate

/-! ## The output array after the region, and its four lanes as sums over the whole arrays -/

section final

-- the block after a point enters below only through the sum it has been shown to be
attribute [local irreducible] outsAt0

theorem lt63 : 63 < cfg0.N := by rw [show cfg0.N = 64 from N_0]; omega

/-- The last point, the only one after which the output block is written back. -/
abbrev tLast : Fin cfg0.N := ⟨63, lt63⟩

/-- Block (0, 0) of the 1 × 128 output array is the array: writing a block back there writes the block itself. -/
theorem cut_eq_read (c : Dev nD) (X : Buf (Elt Ideal) ((c : Thread nD τ).loc main_v0)) :
    (cfg0.win 3).cut (grid0.coords tLast) X = ((cfg0.win 3).blk tLast).view.read (Elt Ideal) X := by
  have hz' : (fun a => win0_3.index tLast a * main_v0.ty.shape.size a) = fun _ => 0 :=
    funext fun a => by fin_cases a <;> decide
  exact (Memref.read_access_unit_zero (Elt Ideal) main_v0 hz' (fun a => by rw [congrFun hz' a]; simp) X).symm

/-- The output block after the last point, as contents of the output array. -/
abbrev result (c : Dev nD) : Buf (Elt Ideal) ((c : Thread nD τ).loc main_v0) := outsAt0 (F := Ideal) V c 63 lt63

/-- The one write-back, after the last point, writes that block. -/
theorem flushed_eq (c : Dev nD) (t : Fin cfg0.N) (hf : (cfg0.win 3).flush t = true) :
    (dat0 (F := Ideal) V c).flushed 3 t = ((cfg0.win 3).blk t).view.read (Elt Ideal) (result V c) := by
  have hN : cfg0.N = 64 := N_0
  have h63 : t.val = 63 := by have := (flush0_3 t).mp hf; have := t.isLt; omega
  obtain rfl : t = tLast := Fin.ext h63
  show (cfg0.win 3).cut (grid0.coords tLast) ((dat0 (F := Ideal) V c).after 3 tLast) = _
  rw [after0_3]
  exact cut_eq_read c (outsAt0 (F := Ideal) V c 63 lt63)

/-- So the output array ends holding the block the last point left. -/
theorem final_out (c : Dev nD) : (dat0 (F := Ideal) V c).arrAt 3 cfg0.N = result V c :=
  (dat0 (F := Ideal) V c).arrAt_eq_of_cover 3 (result V c) (flushed_eq V c) fun i =>
    ⟨tLast, (flush0_3 tLast).mpr rfl, by
      show i ∈ ((View.whole main_v0).slice (win0_3.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win0_3.index tLast 0 * win0_3.size 0 ≤ (i 0 : Nat)
          ∧ (i 0 : Nat) < win0_3.index tLast 0 * win0_3.size 0 + win0_3.xsize (grid0.coords tLast) 0
        rw [show win0_3.index tLast 0 * win0_3.size 0 = 0 from by decide +kernel,
          show win0_3.xsize (grid0.coords tLast) 0 = 1 from by decide +kernel]
        omega
      | ⟨1, _⟩ =>
        show win0_3.index tLast 1 * win0_3.size 1 ≤ (i 1 : Nat)
          ∧ (i 1 : Nat) < win0_3.index tLast 1 * win0_3.size 1 + win0_3.xsize (grid0.coords tLast) 1
        rw [show win0_3.index tLast 1 * win0_3.size 1 = 0 from by decide +kernel,
          show win0_3.xsize (grid0.coords tLast) 1 = 128 from by decide +kernel]
        omega⟩

/-- Column block k as a point of the grid. -/
abbrev pt (k : Fin 64) : Fin cfg0.N := ⟨k.val, lt_of_lt_of_eq k.isLt N_0.symm⟩

/-- Every lane of the output array is the sum over the sixty-four points of the point's lane value. -/
theorem lane_sum (c : Dev nD) (j : Fin 128) : outArr V c (ix2 0 j) = ∑ k : Fin 64, ptAdd V c (pt k) j :=
  (congrFun (final_out V c) (ix2 0 j)).trans (outsAt_sum V c j 63 lt63)

theorem laneAdd_0 (x0 x1 x2 : S32x16384.Idx → EReal) : laneAdd x0 x1 x2 (0 : Fin 128) = sumBlk x0 := by
  unfold laneAdd
  rw [if_neg (by decide), if_neg (by decide), if_neg (by decide), if_pos (by decide)]
theorem laneAdd_1 (x0 x1 x2 : S32x16384.Idx → EReal) : laneAdd x0 x1 x2 (1 : Fin 128) = sumBlk x1 := by
  unfold laneAdd
  rw [if_neg (by decide), if_neg (by decide), if_pos (by decide)]
theorem laneAdd_2 (x0 x1 x2 : S32x16384.Idx → EReal) :
    laneAdd x0 x1 x2 (2 : Fin 128) = sumBlk (fun i => x0 i * x1 i) := by
  unfold laneAdd
  rw [if_neg (by decide), if_pos (by decide)]
theorem laneAdd_3 (x0 x1 x2 : S32x16384.Idx → EReal) :
    laneAdd x0 x1 x2 (3 : Fin 128) = sumBlk (fun i => bitVal (validBit (x2 i))) := by
  unfold laneAdd
  rw [if_pos (by decide)]

/-- A block's sum, when the block's entries are the entries of column block k of a function on the array. -/
theorem sumBlk_of_col (f : S32x1048576.Idx → EReal) (g : S32x16384.Idx → EReal) (k : Fin 64)
    (h : ∀ (r : Fin 32) (l : Fin 16384), g (ix2 r l) = f (ix2 r (KBlock.colAt k l))) :
    sumBlk g = ∑ r : Fin 32, ∑ l : Fin 16384, f (ix2 r (KBlock.colAt k l)) := by
  unfold sumBlk
  exact Finset.sum_congr rfl fun r _ => Finset.sum_congr rfl fun l _ => h r l

end final

/-! ## The four lanes -/

theorem final_lane0 (c : Dev nD) : outArr V c (ix2 0 0) = total (arrP V c) := by
  refine (lane_sum V c 0).trans ?_
  unfold total
  rw [← KBlock.sum_blocks (arrP V c)]
  refine Finset.sum_congr rfl fun k _ => ?_
  unfold ptAdd
  rw [laneAdd_0]
  exact sumBlk_of_col (arrP V c) (blkP V c (pt k)) k (fun r l => blkP_apply V c (pt k) r l)
theorem final_lane1 (c : Dev nD) : outArr V c (ix2 0 1) = total (arrT V c) := by
  refine (lane_sum V c 1).trans ?_
  unfold total
  rw [← KBlock.sum_blocks (arrT V c)]
  refine Finset.sum_congr rfl fun k _ => ?_
  unfold ptAdd
  rw [laneAdd_1]
  exact sumBlk_of_col (arrT V c) (blkT V c (pt k)) k (fun r l => blkT_apply V c (pt k) r l)
theorem final_lane2 (c : Dev nD) : outArr V c (ix2 0 2) = dotPT (arrP V c) (arrT V c) := by
  refine (lane_sum V c 2).trans ?_
  unfold dotPT
  rw [← KBlock.sum_blocks (fun i => arrP V c i * arrT V c i)]
  refine Finset.sum_congr rfl fun k _ => ?_
  unfold ptAdd
  rw [laneAdd_2]
  exact sumBlk_of_col (fun i => arrP V c i * arrT V c i) (fun i => blkP V c (pt k) i * blkT V c (pt k) i) k
    (fun r l => by rw [blkP_apply V c (pt k) r l, blkT_apply V c (pt k) r l])
theorem final_lane3 (c : Dev nD) : outArr V c (ix2 0 3) = validCount (arrL V c) := by
  refine (lane_sum V c 3).trans ?_
  unfold validCount
  rw [← KBlock.sum_blocks (fun i => bitVal (validBit (arrL V c i)))]
  refine Finset.sum_congr rfl fun k _ => ?_
  unfold ptAdd
  rw [laneAdd_3]
  exact sumBlk_of_col (fun i => bitVal (validBit (arrL V c i))) (fun i => bitVal (validBit (blkL V c (pt k) i))) k
    (fun r l => by rw [blkL_apply V c (pt k) r l])

end Cert.KernelIdeal.Region0

end
-- ==== Proof.Region1.lean ====
import proofs.«149772_j55929064129141_1_alg».proof.Proof.Gen.KernelIdeal.Frame
import proofs.«149772_j55929064129141_1_alg».proof.Proof.Spec
import proofs.«149772_j55929064129141_1_alg».proof.Proof.KBlock
import Idealize.ShloMosaic.Lib.ValueIdx
import Idealize.ShloMosaic.Lib.Pipeline.Value
import Idealize.ShloMosaic.PureOps.Ideal.Laws
import Idealize.ShloMosaic.Lib.Tactic
import Idealize.ShloMosaic.Lib.StableHlo.Predicate

noncomputable section

namespace Cert.KernelIdeal.Region1

open Cert.KernelIdeal Cert.KernelIdeal.Gen Idealize.ShloMosaic Idealize.ShloMosaic.TcCoe Idealize.SL.Sem
open Idealize.ShloMosaic.ValueIdx HistDice
open Idealize.ShloMosaic.Pipeline (Dat)

/-! ## What one run of the body leaves in the output block -/

section Generic
variable {F : FTy → Type} [FloatOps F]

theorem hz : (![0, 0] : Fin 2 → Nat) = fun _ => 0 := funext fun a => by fin_cases a <;> rfl

/-- The `1 × 1` piece of the parameter row the body loads: its element `(0, 0)`. -/
abbrev ld11 (x3 : Vec F S1x128 .f32) : Vec F S1x1 .f32 :=
  View.ld x3 (Rect.unit ![0, 0] S1x1.size inb_S1x128_S1x1_0_0)

/-- The sum over a block of the float bits `v` at the elements whose bin word is `k` (zero elsewhere): along the
    lanes, then along the rows, then the one element taken out. -/
def binSum (k : BitVec 32) (v24 : IVec S32x16384 32) (v26 : FVec F S32x16384 .f32) : F .f32 :=
  extractAt ![0, 0] (shapeCast S1x1 (multiReduction .add [1] S1 (shapeCast S1x32
    (multiReduction .add [1] S32 (select (cmpi .eq v24 (broadcast S32x16384 k)) v26
      (broadcast S32x16384 (Scalar.ofBits .f32 0x00000000#32))) 0x00000000#32 reduces_S32x16384_S32 (.inl rfl) rfl)
    shapeCasts_S32_S1x32) 0x00000000#32 reduces_S1x32_S1 (.inl rfl) rfl) shapeCasts_S1_S1x1) inpos_S1x1_p0_0

/-- The bin words and the in-range bits of a block, as the body computes them from the loaded blocks. -/
abbrev bins (x0 x1 : Vec F S32x16384 .f32) (x3 : Vec F S1x128 .f32) : IVec S32x16384 32 := k1_pay4 x0 x1 (ld11 x3)
abbrev bits (x0 x1 x2 : Vec F S32x16384 .f32) (x3 : Vec F S1x128 .f32) : FVec F S32x16384 .f32 :=
  k1_pay5 x0 x1 x2 (ld11 x3)

/-- The ten block sums of a point, by bin. -/
def sums (x0 x1 x2 : Vec F S32x16384 .f32) (x3 : Vec F S1x128 .f32) (k : Fin 10) : F .f32 :=
  binSum (BitVec.ofNat 32 k.val) (bins x0 x1 x3) (bits x0 x1 x2 x3)

/-- The block the body leaves over the output block `xo`: `xo` plus the lane vector with the ten block sums in
    lanes `0 … 9`. -/
def step (x0 x1 x2 : Vec F S32x16384 .f32) (x3 xo : Vec F S1x128 .f32) : FVec F S1x128 .f32 :=
  k1_pay1 (sums x0 x1 x2 x3 0) (sums x0 x1 x2 x3 1) (sums x0 x1 x2 x3 2) (sums x0 x1 x2 x3 3) (sums x0 x1 x2 x3 4)
    (sums x0 x1 x2 x3 5) (sums x0 x1 x2 x3 6) (sums x0 x1 x2 x3 7) (sums x0 x1 x2 x3 8) (sums x0 x1 x2 x3 9)
    (iota .tc S1x128 32 [1] iota_S1x128_d1_w32) k1_pay18 k1_pay19 xo

/-- At a point after the first the body leaves, in the output block holding `xo`, `xo` plus the lane vector of the
    point's ten block sums: its one covering store's payload, whose loads read the whole buffers. -/
theorem out_B (c : Dev nD) (i : grid1.Coords) (a1 : Memref sig .tc .vmem S32x16384 .f32) (h1 : a1.IsWhole)
    (a2 : Memref sig .tc .vmem S32x16384 .f32) (h2 : a2.IsWhole) (a3 : Memref sig .tc .vmem S32x16384 .f32) (h3 : a3.IsWhole)
    (a4 : Memref sig .tc .vmem S1x128 .f32) (h4 : a4.IsWhole) (a5 : Memref sig .tc .vmem S1x128 .f32) (h5 : a5.IsWhole)
    (hc : ¬cond1_0 i) (x0 x1 x2 : Vec F S32x16384 .f32) (x3 xo : Vec F S1x128 .f32) :
    out1_B_4 c i a1 h1 a2 h2 a3 h3 a4 h4 a5 h5 hc x0 x1 x2 x3 xo = step x0 x1 x2 x3 xo := by
  unfold out1_B_4
  rw [View.read_writes_eq_canon _ _ _ (cover1_B_4 c i a1 h1 a2 h2 a3 h3 a4 h4 a5 h5 hc x0 x1 x2 x3 xo)]
  unfold kernelRun1_B
  dsimp only
  sl_unfold_words
  rw [View.canon_unit_zero (S := S1x128) hz]
  simp only [View.readAt_eq_ld, h1.read_unread, h2.read_unread, h3.read_unread, h4.read_unread, h5.read_unread,
    View.ld_unit_zero (S := S32x16384) hz, View.ld_unit_zero (S := S1x128) hz]
  rfl

/-- At the first point the body stores the zero block, reads it back, and leaves the zero block plus the lane vector
    of the point's ten block sums. -/
theorem out_A (c : Dev nD) (i : grid1.Coords) (a1 : Memref sig .tc .vmem S32x16384 .f32) (h1 : a1.IsWhole)
    (a2 : Memref sig .tc .vmem S32x16384 .f32) (h2 : a2.IsWhole) (a3 : Memref sig .tc .vmem S32x16384 .f32) (h3 : a3.IsWhole)
    (a4 : Memref sig .tc .vmem S1x128 .f32) (h4 : a4.IsWhole) (a5 : Memref sig .tc .vmem S1x128 .f32) (h5 : a5.IsWhole)
    (hc : cond1_0 i) (x0 x1 x2 : Vec F S32x16384 .f32) (x3 : Vec F S1x128 .f32) :
    out1_A_4 c i a1 h1 a2 h2 a3 h3 a4 h4 a5 h5 hc x0 x1 x2 x3 = step x0 x1 x2 x3 (k1_pay2 (F := F)) := by
  unfold out1_A_4
  rw [View.read_writes_eq_canon _ _ _ (cover1_A_4 c i a1 h1 a2 h2 a3 h3 a4 h4 a5 h5 hc x0 x1 x2 x3)]
  unfold kernelRun1_A
  dsimp only
  sl_unfold_words
  rw [View.canon_cons_unit_zero (S := S1x128) hz]
  simp only [View.readAt_eq_ld, h1.read_unread, h2.read_unread, h3.read_unread, h4.read_unread,
    View.ld_unit_zero (S := S32x16384) hz, View.ld_unit_zero (S := S1x128) hz, View.readCov_unit_zero (S := S1x128) _ hz]
  rfl

end Generic

/-! ## The body's arithmetic at an element, over the extended reals -/

section AtIdeal

/-- The loaded piece's one element is the row's element `(0, 0)`. -/
theorem rho_eq (x3 : Vec Ideal S1x128 .f32) : extractAt ![0, 0] (ld11 x3) inpos_S1x1_p0_0 = x3 (ix2 0 0) := by
  show x3 _ = x3 _
  congr 1
  funext a
  apply Fin.ext
  match a with
  | ⟨0, _⟩ => rfl
  | ⟨1, _⟩ => rfl

/-- An element's bin word is the specification's, at the ratio the parameter row holds. -/
theorem bins_apply (x0 x1 : Vec Ideal S32x16384 .f32) (x3 : Vec Ideal S1x128 .f32) (r : Fin 32) (l : Fin 16384) :
    bins x0 x1 x3 (ix2 r l) = binOf (x3 (ix2 0 0)) (x0 (ix2 r l)) (x1 (ix2 r l)) := by
  rw [← rho_eq x3]; rfl

/-- An element's float bit is the specification's in-range bit as a number: the valid bit and the gap test, widened
    and converted. -/
theorem bits_apply (x0 x1 x2 : Vec Ideal S32x16384 .f32) (x3 : Vec Ideal S1x128 .f32) (r : Fin 32) (l : Fin 16384) :
    bits x0 x1 x2 x3 (ix2 r l) = bitVal (inBit (x3 (ix2 0 0)) (x0 (ix2 r l)) (x1 (ix2 r l)) (x2 (ix2 r l))) := by
  rw [← rho_eq x3]
  refine (KBlock.bit_sitofp _).trans ?_
  unfold inBit validBit
  rw [← Ideal.ofBits_zero_f32]
  rfl

/-- A block sum is the sum, over the block's rows and lanes, of the float bits at the elements of that bin. -/
theorem binSum_eq (k : BitVec 32) (v24 : IVec S32x16384 32) (v26 : FVec Ideal S32x16384 .f32) :
    binSum (F := Ideal) k v24 v26
      = ∑ r : Fin 32, ∑ l : Fin 16384, if v24 (ix2 r l) = k then v26 (ix2 r l) else 0 := by
  unfold binSum
  refine (KBlock.blockSum_eq _ _ _ _ _ _ _ _ _).trans ?_
  refine Finset.sum_congr rfl fun r _ => Finset.sum_congr rfl fun l _ => ?_
  show Scalar.select (IntOp.cmpi .eq (v24 (ix2 r l)) k) (v26 (ix2 r l)) (Ideal.ofBits .f32 0x00000000#32) = _
  rw [Ideal.ofBits_zero_f32]
  unfold Scalar.select
  exact if_congr StableHlo.Predicate.cmpi_eq_iff rfl rfl

end AtIdeal

/-! ## The lane vector at a lane below ten -/

section Lanes

/-- The chain of ten choices on the lane's number `w`, a later match overriding an earlier one. -/
def lanePick (v : Fin 10 → EReal) (z : EReal) (w : BitVec 32) : EReal :=
  Scalar.select (IntOp.cmpi .eq w 9#32) (v 9) (Scalar.select (IntOp.cmpi .eq w 8#32) (v 8)
    (Scalar.select (IntOp.cmpi .eq w 7#32) (v 7) (Scalar.select (IntOp.cmpi .eq w 6#32) (v 6)
    (Scalar.select (IntOp.cmpi .eq w 5#32) (v 5) (Scalar.select (IntOp.cmpi .eq w 4#32) (v 4)
    (Scalar.select (IntOp.cmpi .eq w 3#32) (v 3) (Scalar.select (IntOp.cmpi .eq w 2#32) (v 2)
    (Scalar.select (IntOp.cmpi .eq w 1#32) (v 1) (Scalar.select (IntOp.cmpi .eq w 0#32) (v 0) z)))))))))

/-- At the number of a lane below ten the chain picks that lane's value. -/
theorem lanePick_ofNat (v : Fin 10 → EReal) (z : EReal) (b : Fin 10) : lanePick v z (BitVec.ofNat 32 b.val) = v b := by
  fin_cases b <;> rfl

/-- The body's new block at a lane below ten: the old block's lane plus that lane's value. -/
theorem pay1_lane (v : Fin 10 → EReal) (xo : Vec Ideal S1x128 .f32) (b : Fin 10) :
    k1_pay1 (F := Ideal) (v 0) (v 1) (v 2) (v 3) (v 4) (v 5) (v 6) (v 7) (v 8) (v 9)
      (iota .tc S1x128 32 [1] iota_S1x128_d1_w32) (k1_pay18 (F := Ideal)) k1_pay19 xo (ix2 0 ⟨b.val, by omega⟩)
      = xo (ix2 0 ⟨b.val, by omega⟩) + v b := by
  have e : k1_pay1 (F := Ideal) (v 0) (v 1) (v 2) (v 3) (v 4) (v 5) (v 6) (v 7) (v 8) (v 9)
      (iota .tc S1x128 32 [1] iota_S1x128_d1_w32) (k1_pay18 (F := Ideal)) k1_pay19 xo
      = addf xo (fun i => lanePick v (Ideal.ofBits .f32 0x00000000#32) (iota .tc S1x128 32 [1] iota_S1x128_d1_w32 i)) := by
    unfold k1_pay1
    rw [shapeCast_self]
    rfl
  rw [e, addf_apply]
  show _ + lanePick v _ (iota .tc S1x128 32 [1] iota_S1x128_d1_w32 (ix2 0 ⟨b.val, by omega⟩)) = _
  rw [KBlock.iota_lane, lanePick_ofNat]

end Lanes

/-! ## One point's contribution -/

section Point

/-- The number of in-range elements of bin `b` in one block, at ratio `ρ`. -/
def blockCount (ρ : EReal) (p t l : Vec Ideal S32x16384 .f32) (b : Fin 10) : EReal :=
  ∑ r : Fin 32, ∑ j : Fin 16384,
    if binOf ρ (p (ix2 r j)) (t (ix2 r j)) = BitVec.ofNat 32 b.val
    then bitVal (inBit ρ (p (ix2 r j)) (t (ix2 r j)) (l (ix2 r j))) else 0

/-- The body's new block at a lane below ten: the old lane plus the block's count of that bin. -/
theorem step_lane (x0 x1 x2 : Vec Ideal S32x16384 .f32) (x3 xo : Vec Ideal S1x128 .f32) (b : Fin 10) :
    step x0 x1 x2 x3 xo (ix2 0 ⟨b.val, by omega⟩)
      = xo (ix2 0 ⟨b.val, by omega⟩) + blockCount (x3 (ix2 0 0)) x0 x1 x2 b := by
  unfold step
  refine (pay1_lane (sums x0 x1 x2 x3) xo b).trans ?_
  refine congrArg (fun y => xo (ix2 0 ⟨b.val, by omega⟩) + y) ?_
  unfold sums
  rw [binSum_eq]
  unfold blockCount
  refine Finset.sum_congr rfl fun r _ => Finset.sum_congr rfl fun j _ => ?_
  rw [bins_apply, bits_apply]

end Point

variable (V : (c : Dev nD) → (b : Ref sig .tc) → Buf (Elt Ideal) ((c : Thread nD τ).loc b))

/-- The three arrays and the parameter row as the region finds them, and the output array as it leaves it. -/
abbrev arrP (c : Dev nD) : S32x1048576.Idx → EReal := V c (Pipeline.arrRef spec1 0)
abbrev arrT (c : Dev nD) : S32x1048576.Idx → EReal := V c (Pipeline.arrRef spec1 1)
abbrev arrL (c : Dev nD) : S32x1048576.Idx → EReal := V c (Pipeline.arrRef spec1 2)
abbrev prm (c : Dev nD) : S1x128.Idx → EReal := V c (Pipeline.arrRef spec1 3)
abbrev outArr (c : Dev nD) : S1x128.Idx → EReal := (dat1 (F := Ideal) V c).arrAt 4 cfg1.N

/-! ## A window's block at a point is its array's column block -/

section Blocks

/-- The four input blocks at a point. -/
abbrev blkP (c : Dev nD) (t : Fin cfg1.N) : Vec Ideal S32x16384 .f32 := iblk1 V c 0 t
abbrev blkT (c : Dev nD) (t : Fin cfg1.N) : Vec Ideal S32x16384 .f32 := iblk1 V c 1 t
abbrev blkL (c : Dev nD) (t : Fin cfg1.N) : Vec Ideal S32x16384 .f32 := iblk1 V c 2 t
abbrev blkR (c : Dev nD) (t : Fin cfg1.N) : Vec Ideal S1x128 .f32 := iblk1 V c 3 t

/-- A point as a number below sixty-four. -/
abbrev pt (t : Fin cfg1.N) : Fin 64 := ⟨t.val, lt_of_lt_of_eq t.isLt (show cfg1.N = 64 from N_1)⟩

/-- The windows' block indices at a point: the three arrays' blocks move along the columns with the point, the
    parameter row's and the output's stay. -/
theorem idx_facts : ∀ t : Fin cfg1.N,
    (win1_0.index t (0 : Fin 2) = 0 ∧ win1_0.index t (1 : Fin 2) = t.val)
    ∧ (win1_1.index t (0 : Fin 2) = 0 ∧ win1_1.index t (1 : Fin 2) = t.val)
    ∧ (win1_2.index t (0 : Fin 2) = 0 ∧ win1_2.index t (1 : Fin 2) = t.val)
    ∧ (win1_3.index t (0 : Fin 2) = 0 ∧ win1_3.index t (1 : Fin 2) = 0)
    ∧ (win1_4.index t (0 : Fin 2) = 0 ∧ win1_4.index t (1 : Fin 2) = 0) :=
  (by decide +kernel : ∀ t : Fin grid1.N,
    (win1_0.index t (0 : Fin 2) = 0 ∧ win1_0.index t (1 : Fin 2) = t.val)
    ∧ (win1_1.index t (0 : Fin 2) = 0 ∧ win1_1.index t (1 : Fin 2) = t.val)
    ∧ (win1_2.index t (0 : Fin 2) = 0 ∧ win1_2.index t (1 : Fin 2) = t.val)
    ∧ (win1_3.index t (0 : Fin 2) = 0 ∧ win1_3.index t (1 : Fin 2) = 0)
    ∧ (win1_4.index t (0 : Fin 2) = 0 ∧ win1_4.index t (1 : Fin 2) = 0))

theorem blkP_apply (c : Dev nD) (t : Fin cfg1.N) (r : Fin 32) (l : Fin 16384) :
    blkP V c t (ix2 r l) = arrP V c (ix2 r (KBlock.colAt (pt t) l)) := by
  unfold blkP iblk1
  rw [View.read_apply]
  show V c (Pipeline.arrRef spec1 0) _ = V c (Pipeline.arrRef spec1 0) _
  refine congrArg (V c (Pipeline.arrRef spec1 0)) ?_
  funext a
  apply Fin.ext
  match a with
  | ⟨0, _⟩ => show win1_0.index t 0 * 32 + 1 * r.val = r.val; rw [(idx_facts t).1.1]; omega
  | ⟨1, _⟩ => show win1_0.index t 1 * 16384 + 1 * l.val = t.val * 16384 + l.val; rw [(idx_facts t).1.2]; omega

theorem blkT_apply (c : Dev nD) (t : Fin cfg1.N) (r : Fin 32) (l : Fin 16384) :
    blkT V c t (ix2 r l) = arrT V c (ix2 r (KBlock.colAt (pt t) l)) := by
  unfold blkT iblk1
  rw [View.read_apply]
  show V c (Pipeline.arrRef spec1 1) _ = V c (Pipeline.arrRef spec1 1) _
  refine congrArg (V c (Pipeline.arrRef spec1 1)) ?_
  funext a
  apply Fin.ext
  match a with
  | ⟨0, _⟩ => show win1_1.index t 0 * 32 + 1 * r.val = r.val; rw [(idx_facts t).2.1.1]; omega
  | ⟨1, _⟩ => show win1_1.index t 1 * 16384 + 1 * l.val = t.val * 16384 + l.val; rw [(idx_facts t).2.1.2]; omega

theorem blkL_apply (c : Dev nD) (t : Fin cfg1.N) (r : Fin 32) (l : Fin 16384) :
    blkL V c t (ix2 r l) = arrL V c (ix2 r (KBlock.colAt (pt t) l)) := by
  unfold blkL iblk1
  rw [View.read_apply]
  show V c (Pipeline.arrRef spec1 2) _ = V c (Pipeline.arrRef spec1 2) _
  refine congrArg (V c (Pipeline.arrRef spec1 2)) ?_
  funext a
  apply Fin.ext
  match a with
  | ⟨0, _⟩ => show win1_2.index t 0 * 32 + 1 * r.val = r.val; rw [(idx_facts t).2.2.1.1]; omega
  | ⟨1, _⟩ => show win1_2.index t 1 * 16384 + 1 * l.val = t.val * 16384 + l.val; rw [(idx_facts t).2.2.1.2]; omega

/-- The parameter row's block is the whole row at every point: its element `(0, 0)` is the row's. -/
theorem blkR_apply (c : Dev nD) (t : Fin cfg1.N) : blkR V c t (ix2 0 0) = prm V c (ix2 0 0) := by
  unfold blkR iblk1
  rw [View.read_apply]
  show V c (Pipeline.arrRef spec1 3) _ = V c (Pipeline.arrRef spec1 3) _
  refine congrArg (V c (Pipeline.arrRef spec1 3)) ?_
  funext a
  apply Fin.ext
  match a with
  | ⟨0, _⟩ => show win1_3.index t 0 * 1 + 1 * 0 = 0; rw [(idx_facts t).2.2.2.1.1]
  | ⟨1, _⟩ => show win1_3.index t 1 * 128 + 1 * 0 = 0; rw [(idx_facts t).2.2.2.1.2]

end Blocks

/-! ## The output block after each point: the running sum of the points' counts -/

section Run

/-- Point `t`'s count of bin `b`: its block's. -/
def contrib (c : Dev nD) (b : Fin 10) (t : Fin cfg1.N) : EReal :=
  blockCount (blkR V c t (ix2 0 0)) (blkP V c t) (blkT V c t) (blkL V c t) b

/-- The same for any natural number, nothing past the grid. -/
def contribN (c : Dev nD) (b : Fin 10) (s : ℕ) : EReal := if h : s < cfg1.N then contrib V c b ⟨s, h⟩ else 0

/-- At the first point the output block's lane `b` ends at the point's count: the zero block plus it. -/
theorem outs_A (c : Dev nD) (b : Fin 10) (t : Fin cfg1.N) (h0 : t.val % 64 = 0) :
    outsAt1 (F := Ideal) V c t.val t.isLt (ix2 0 ⟨b.val, by omega⟩) = contrib V c b t := by
  rw [outsAt1_A V c t h0]
  refine (congrFun (out_A (F := Ideal) c (grid1.coords t) (ms1_0 t) (hs1_0 t) (ms1_1 t) (hs1_1 t) (ms1_2 t) (hs1_2 t)
    (ms1_3 t) (hs1_3 t) (ms1_4 t) (hs1_4 t) ((hcond1_0 t).mpr h0) (blkP V c t) (blkT V c t) (blkL V c t) (blkR V c t))
    (ix2 0 ⟨b.val, by omega⟩)).trans ?_
  refine (step_lane (blkP V c t) (blkT V c t) (blkL V c t) (blkR V c t) (k1_pay2 (F := Ideal)) b).trans ?_
  show Ideal.ofBits .f32 0x00000000#32 + _ = _
  rw [Ideal.ofBits_zero_f32, zero_add]
  rfl

/-- At a later point it ends at what the point before left plus the point's count. -/
theorem outs_B (c : Dev nD) (b : Fin 10) (t : Fin cfg1.N) (h0 : ¬t.val % 64 = 0) :
    outsAt1 (F := Ideal) V c t.val t.isLt (ix2 0 ⟨b.val, by omega⟩)
      = outsAt1 (F := Ideal) V c (t.val - 1) (Nat.lt_of_le_of_lt (Nat.sub_le _ _) t.isLt) (ix2 0 ⟨b.val, by omega⟩)
        + contrib V c b t := by
  rw [outsAt1_B V c t h0]
  refine (congrFun (out_B (F := Ideal) c (grid1.coords t) (ms1_0 t) (hs1_0 t) (ms1_1 t) (hs1_1 t) (ms1_2 t) (hs1_2 t)
    (ms1_3 t) (hs1_3 t) (ms1_4 t) (hs1_4 t) (fun h => h0 ((hcond1_0 t).mp h)) (blkP V c t) (blkT V c t) (blkL V c t)
    (blkR V c t) (outsAt1 (F := Ideal) V c (t.val - 1) (Nat.lt_of_le_of_lt (Nat.sub_le _ _) t.isLt)))
    (ix2 0 ⟨b.val, by omega⟩)).trans ?_
  exact step_lane (blkP V c t) (blkT V c t) (blkL V c t) (blkR V c t)
    (outsAt1 (F := Ideal) V c (t.val - 1) (Nat.lt_of_le_of_lt (Nat.sub_le _ _) t.isLt)) b

/-- So after point `n` lane `b` of the output block holds the sum of the counts of points `0 … n`. -/
theorem outsAt_lane (c : Dev nD) (b : Fin 10) : ∀ (n : ℕ) (h : n < cfg1.N),
    outsAt1 (F := Ideal) V c n h (ix2 0 ⟨b.val, by omega⟩) = ∑ s ∈ Finset.range (n + 1), contribN V c b s
  | 0, h => by
    rw [Finset.sum_range_one]
    unfold contribN
    rw [dif_pos h]
    exact outs_A V c b ⟨0, h⟩ rfl
  | n + 1, h => by
    have hN : n + 1 < 64 := lt_of_lt_of_eq h (show cfg1.N = 64 from N_1)
    have hB : ¬(⟨n + 1, h⟩ : Fin cfg1.N).val % 64 = 0 := by dsimp only; omega
    rw [Finset.sum_range_succ, ← outsAt_lane c b n (Nat.lt_of_succ_lt h)]
    unfold contribN
    rw [dif_pos h]
    exact outs_B V c b ⟨n + 1, h⟩ hB

end Run

/-! ## The output array after the region -/

section Final

/-- The last point. -/
theorem h63 : 63 < cfg1.N := by rw [show cfg1.N = 64 from N_1]; decide
abbrev tLast : Fin cfg1.N := ⟨63, h63⟩

/-- What the output block holds after the last point, as contents of the output array (its one block is the array). -/
abbrev result (c : Dev nD) : Buf (Elt Ideal) ((c : Thread nD τ).loc main_v18) := outsAt1 (F := Ideal) V c 63 h63

/-- Whatever the output block holds at the last point, its write-back moves all of it, and the block read off the
    array at zero offsets is the array. -/
theorem cut_read_last (X : Vec Ideal S1x128 .f32) :
    (cfg1.win 4).cut (grid1.coords tLast) X = ((cfg1.win 4).blk tLast).view.read (Elt Ideal) X := by
  have hz' : (fun a => win1_4.index tLast a * main_v18.ty.shape.size a) = fun _ => 0 :=
    funext fun a => by fin_cases a <;> decide
  exact (Memref.read_access_unit_zero (Elt Ideal) main_v18 hz' (fun a => by rw [congrFun hz' a]; simp) X).symm

/-- The one write-back, at the last point, writes it: block (0, 0) of the `1 × 128` array read through zero offsets is
    the array. -/
theorem flushed_eq (c : Dev nD) (t : Fin cfg1.N) (hf : (cfg1.win 4).flush t = true) :
    (dat1 (F := Ideal) V c).flushed 4 t = ((cfg1.win 4).blk t).view.read (Elt Ideal) (result V c) := by
  have hN : cfg1.N = 64 := N_1
  have h3 : t.val = 63 := by have := (flush1_4 t).mp hf; have := t.isLt; omega
  obtain rfl : t = tLast := Fin.ext h3
  show (cfg1.win 4).cut (grid1.coords tLast) ((dat1 (F := Ideal) V c).after 4 tLast) = _
  rw [after1_4]
  exact cut_read_last (outsAt1 (F := Ideal) V c tLast.val tLast.isLt)

/-- So the output array ends holding what the output block holds after the last point. -/
theorem final_o (c : Dev nD) : (dat1 (F := Ideal) V c).arrAt 4 cfg1.N = result V c :=
  (dat1 (F := Ideal) V c).arrAt_eq_of_cover 4 (result V c) (flushed_eq V c) fun i =>
    ⟨tLast, (flush1_4 tLast).mpr rfl, by
      show i ∈ ((View.whole main_v18).slice (win1_4.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win1_4.index tLast 0 * win1_4.size 0 ≤ (i 0 : Nat)
          ∧ (i 0 : Nat) < win1_4.index tLast 0 * win1_4.size 0 + win1_4.xsize (grid1.coords tLast) 0
        rw [show win1_4.index tLast 0 * win1_4.size 0 = 0 from by decide +kernel,
          show win1_4.xsize (grid1.coords tLast) 0 = 1 from by decide +kernel]; omega
      | ⟨1, _⟩ =>
        show win1_4.index tLast 1 * win1_4.size 1 ≤ (i 1 : Nat)
          ∧ (i 1 : Nat) < win1_4.index tLast 1 * win1_4.size 1 + win1_4.xsize (grid1.coords tLast) 1
        rw [show win1_4.index tLast 1 * win1_4.size 1 = 0 from by decide +kernel,
          show win1_4.xsize (grid1.coords tLast) 1 = 128 from by decide +kernel]; omega⟩

end Final

theorem final_lane (c : Dev nD) (b : Fin 10) :
    outArr V c (ix2 0 ⟨b.val, by omega⟩) = count (arrP V c) (arrT V c) (arrL V c) (prm V c (ix2 0 0)) b := by
  show (dat1 (F := Ideal) V c).arrAt 4 cfg1.N (ix2 0 ⟨b.val, by omega⟩) = _
  rw [final_o V c]
  show outsAt1 (F := Ideal) V c 63 h63 (ix2 0 ⟨b.val, by omega⟩) = _
  rw [outsAt_lane V c b 63 h63, Finset.sum_range]
  unfold HistDice.count
  refine Eq.trans ?_ (KBlock.sum_blocks (fun i =>
    if binOf (prm V c (ix2 0 0)) (arrP V c i) (arrT V c i) = BitVec.ofNat 32 b.val
    then bitVal (inBit (prm V c (ix2 0 0)) (arrP V c i) (arrT V c i) (arrL V c i)) else 0))
  refine Finset.sum_congr rfl fun t _ => ?_
  have ht : t.val < cfg1.N := lt_of_lt_of_eq t.isLt (show 64 = cfg1.N from N_1.symm)
  unfold contribN
  rw [dif_pos ht]
  unfold contrib blockCount
  refine Finset.sum_congr rfl fun r _ => Finset.sum_congr rfl fun l _ => ?_
  rw [blkR_apply, blkP_apply, blkT_apply, blkL_apply]

end Cert.KernelIdeal.Region1

end
-- ==== Proof.Region2.lean ====
import proofs.«149772_j55929064129141_1_alg».proof.Proof.Gen.KernelIdeal.Frame
import proofs.«149772_j55929064129141_1_alg».proof.Proof.Spec
import proofs.«149772_j55929064129141_1_alg».proof.Proof.KBlock
import Idealize.ShloMosaic.Lib.ValueIdx
import Idealize.ShloMosaic.Lib.Pipeline.Value
import Idealize.ShloMosaic.PureOps.Ideal.Laws
import Idealize.ShloMosaic.Lib.Tactic
import Idealize.ShloMosaic.Lib.StableHlo.Predicate

noncomputable section

namespace Cert.KernelIdeal.Region2

open Cert.KernelIdeal Cert.KernelIdeal.Gen Idealize.ShloMosaic Idealize.ShloMosaic.TcCoe Idealize.SL.Sem
open Idealize.ShloMosaic.ValueIdx HistDice
open Idealize.ShloMosaic.Pipeline (Dat)

section generic
variable {F : FTy → Type} [FloatOps F]

theorem hz : (![0, 0] : Fin 2 → Nat) = fun _ => 0 := funext fun a => by fin_cases a <;> rfl

/-- What the body leaves in the output block, as a function of the three data blocks, the parameter row, the row of bin
    counts and what the output block held when the body read it. -/
def body (x0 x1 x2 : Vec F S32x16384 .f32) (x3 x4 xo : Vec F S1x128 .f32) : FVec F S1x128 .f32 :=
  k2_pay1 x0 x1 (k2_pay3 (View.ld x3 (Rect.unit ![0, 1] ![1, 1] inb_S1x128_S1x1_0_1)))
    (k2_pay4 (View.ld x3 (Rect.unit ![0, 2] ![1, 1] inb_S1x128_S1x1_0_2)))
    (k2_pay7 x0 x1 x2 (View.ld x3 (Rect.unit ![0, 0] ![1, 1] inb_S1x128_S1x1_0_0)))
    (k2_pay8 x0 x1 (View.ld x3 (Rect.unit ![0, 0] ![1, 1] inb_S1x128_S1x1_0_0)))
    (k2_pay12 (k2_pay5 x4) (k2_pay8 x0 x1 (View.ld x3 (Rect.unit ![0, 0] ![1, 1] inb_S1x128_S1x1_0_0))) k2_pay9
      (k2_pay10 x4) k2_pay11)
    (k2_pay13 (k2_pay5 x4)) xo

/-- At a later point the body adds into what the point before left. -/
theorem out_B (c : Dev nD) (i : grid2.Coords) (a1 : Memref sig .tc .vmem S32x16384 .f32) (h1 : a1.IsWhole)
    (a2 : Memref sig .tc .vmem S32x16384 .f32) (h2 : a2.IsWhole) (a3 : Memref sig .tc .vmem S32x16384 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (hc : ¬cond2_0 i)
    (x0 x1 x2 : Vec F S32x16384 .f32) (x3 x4 xo : Vec F S1x128 .f32) :
    out2_B_5 c i a1 h1 a2 h2 a3 h3 a4 h4 a5 h5 a6 h6 hc x0 x1 x2 x3 x4 xo = body x0 x1 x2 x3 x4 xo := by
  unfold out2_B_5
  rw [View.read_writes_eq_canon _ _ _ (cover2_B_5 c i a1 h1 a2 h2 a3 h3 a4 h4 a5 h5 a6 h6 hc x0 x1 x2 x3 x4 xo)]
  unfold kernelRun2_B
  dsimp only
  sl_unfold_words
  rw [View.canon_unit_zero hz]
  unfold body
  simp only [View.readAt_eq_ld, h1.read_unread, h2.read_unread, h3.read_unread, h4.read_unread, h5.read_unread,
    h6.read_unread, View.ld_unit_zero (S := S32x16384) hz, View.ld_unit_zero (S := S1x128) hz]

/-- At the first point the body first stores the zero row, reads it back, and adds into that. -/
theorem out_A (c : Dev nD) (i : grid2.Coords) (a1 : Memref sig .tc .vmem S32x16384 .f32) (h1 : a1.IsWhole)
    (a2 : Memref sig .tc .vmem S32x16384 .f32) (h2 : a2.IsWhole) (a3 : Memref sig .tc .vmem S32x16384 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (hc : cond2_0 i)
    (x0 x1 x2 : Vec F S32x16384 .f32) (x3 x4 : Vec F S1x128 .f32) :
    out2_A_5 c i a1 h1 a2 h2 a3 h3 a4 h4 a5 h5 a6 h6 hc x0 x1 x2 x3 x4 = body x0 x1 x2 x3 x4 (k2_pay2 (F := F)) := by
  unfold out2_A_5
  rw [View.read_writes_eq_canon _ _ _ (cover2_A_5 c i a1 h1 a2 h2 a3 h3 a4 h4 a5 h5 a6 h6 hc x0 x1 x2 x3 x4)]
  unfold kernelRun2_A
  dsimp only
  sl_unfold_words
  rw [View.canon_cons_unit_zero (S := S1x128) hz]
  unfold body
  simp only [View.readAt_eq_ld, h1.read_unread, h2.read_unread, h3.read_unread, h4.read_unread, h5.read_unread,
    View.ld_unit_zero (S := S32x16384) hz, View.ld_unit_zero (S := S1x128) hz, View.readCov_unit_zero (S := S1x128) _ hz]

end generic

section ideal

theorem cmpi_apply' {s : Shape} {w : Nat} (p : CmpIPredicate) (x y : IVec s w) (i : s.Idx) :
    cmpi p x y i = IntOp.cmpi p (x i) (y i) := rfl

/-- A select on a word comparison for equality is a case split on the equality. -/
theorem select_cmpi_eq {α : Type} {w : Nat} (a b : BitVec w) (x y : α) :
    Scalar.select (IntOp.cmpi .eq a b) x y = if a = b then x else y := by
  show (if IntOp.cmpi .eq a b = 1#1 then x else y) = _
  by_cases h : a = b
  · rw [if_pos h, if_pos (StableHlo.Predicate.cmpi_eq_iff.mpr h)]
  · rw [if_neg h, if_neg (fun h' => h (StableHlo.Predicate.cmpi_eq_iff.mp h'))]

/-- The one-element load at lane `k` of a row, taken out of its 1 × 1 vector, is the row's lane `k`. -/
theorem ld_lane (x : Vec Ideal S1x128 .f32) (k : Nat) (hk : k < 128)
    (inb : ∀ a, (![0, k] : Fin 2 → Nat) a + S1x1.size a ≤ S1x128.size a) :
    extractAt ![0, 0] (View.ld (Val := Elt Ideal) (e' := .f32) x (Rect.unit ![0, k] ![1, 1] inb)) inpos_S1x1_p0_0 = x (ix2 0 ⟨k, hk⟩) :=
  congrArg x (funext fun a => Fin.ext (by
    match a with
    | ⟨0, _⟩ => rfl
    | ⟨1, _⟩ => show k + 1 * 0 = k; omega))

/-- The one-element slice at lane `k` of a row, taken out of its 1 × 1 vector, is the row's lane `k`. -/
theorem slice_lane (x : FVec Ideal S1x128 .f32) (k : Nat) (hk : k < 128) (h : S1x128.Slices ![0, k] S1x1) :
    extractAt ![0, 0] (extractStridedSlice S1x1 ![0, k] x h) inpos_S1x1_p0_0 = x (ix2 0 ⟨k, hk⟩) :=
  congrArg x (funext fun a => Fin.ext (by
    match a with
    | ⟨0, _⟩ => rfl
    | ⟨1, _⟩ => show k + 0 = k; omega))

/-- Lane 0 of the row the body stores: what the output block held there, plus the sum over the block of the elements'
    products. -/
theorem pay1_lane0 (v3 v4 : FVec Ideal S32x16384 .f32) (v9 v11 : EReal) (v22 : IVec S32x16384 1) (v30 : IVec S32x16384 32)
    (v85 : FVec Ideal S32x16384 .f32) (v86 : FVec Ideal S1x1 .f32) (v115 : FVec Ideal S1x128 .f32) :
    k2_pay1 (F := Ideal) v3 v4 v9 v11 v22 v30 v85 v86 v115 (ix2 0 0) = v115 (ix2 0 0) + ∑ r : Fin 32, ∑ l : Fin 16384,
      two * v3 (ix2 r l) * v4 (ix2 r l) * Ideal.div (if v22 (ix2 r l) = 1#1 then
        Ideal.div v9 (max (if v30 (ix2 r l) = 9#32 then extractAt ![0, 0] v86 inpos_S1x1_p0_0 else v85 (ix2 r l)) one) else 0) v11 := by
  unfold k2_pay1
  dsimp only
  rw [shapeCast_self]
  refine (addf_apply _ _ _).trans ?_
  refine congrArg (v115 (ix2 0 0) + ·) ?_
  rw [select_apply, cmpi_apply', KBlock.iota_lane, broadcast_apply, broadcast_apply, broadcast_apply, select_cmpi_eq,
    if_pos (by decide)]
  refine (KBlock.blockSum_eq _ _ _ _ _ _ _ _ _).trans ?_
  refine Finset.sum_congr rfl fun r _ => Finset.sum_congr rfl fun l _ => ?_
  simp only [mulf_apply, divf_apply, maximumf_apply, select_apply, cmpi_apply', broadcast_apply, select_cmpi_eq, Ideal.ofBits_def, Ideal.ofBits_zero_f32]
  rfl

/-- The gap, element by element. -/
theorem pay6_apply (x0 x1 : FVec Ideal S32x16384 .f32) (v6 : FVec Ideal S1x1 .f32) (i : S32x16384.Idx) :
    k2_pay6 (F := Ideal) x0 x1 v6 i = gap (extractAt ![0, 0] v6 inpos_S1x1_p0_0) (x0 i) (x1 i) := rfl

/-- The in-range bit, element by element. -/
theorem pay7_apply (x0 x1 x2 : FVec Ideal S32x16384 .f32) (v6 : FVec Ideal S1x1 .f32) (i : S32x16384.Idx) :
    k2_pay7 (F := Ideal) x0 x1 x2 v6 i = inBit (extractAt ![0, 0] v6 inpos_S1x1_p0_0) (x0 i) (x1 i) (x2 i) := by
  unfold k2_pay7 inBit validBit
  show IntOp.andi (Ideal.cmp .ogt (x2 i) (Ideal.ofBits .f32 0x00000000#32)) (Ideal.cmp .olt (k2_pay6 (F := Ideal) x0 x1 v6 i) edge) = _
  rw [Ideal.ofBits_zero_f32, pay6_apply]

/-- The bin word, element by element. -/
theorem pay8_apply (x0 x1 : FVec Ideal S32x16384 .f32) (v6 : FVec Ideal S1x1 .f32) (i : S32x16384.Idx) :
    k2_pay8 (F := Ideal) x0 x1 v6 i = binOf (extractAt ![0, 0] v6 inpos_S1x1_p0_0) (x0 i) (x1 i) := rfl

/-- The chain of selects over bins 0 … 8, element by element. -/
theorem pay12_apply (v13 : FVec Ideal S1x128 .f32) (v30 : IVec S32x16384 32) (v33 : EReal) (i : S32x16384.Idx) :
    k2_pay12 (F := Ideal) v13 v30 (k2_pay9 (F := Ideal)) v33 k2_pay11 i =
      if v30 i = 8#32 then v13 (ix2 0 8) else if v30 i = 7#32 then v13 (ix2 0 7) else if v30 i = 6#32 then v13 (ix2 0 6)
      else if v30 i = 5#32 then v13 (ix2 0 5) else if v30 i = 4#32 then v13 (ix2 0 4) else if v30 i = 3#32 then v13 (ix2 0 3)
      else if v30 i = 2#32 then v13 (ix2 0 2) else if v30 i = 1#32 then v13 (ix2 0 1) else if v30 i = 0#32 then v33 else 0 := by
  unfold k2_pay12 k2_pay9 k2_pay11
  dsimp only
  simp only [select_apply, cmpi_apply', broadcast_apply, select_cmpi_eq, slice_lane v13 1 (by omega), slice_lane v13 2 (by omega),
    slice_lane v13 3 (by omega), slice_lane v13 4 (by omega), slice_lane v13 5 (by omega), slice_lane v13 6 (by omega),
    slice_lane v13 7 (by omega), slice_lane v13 8 (by omega), Ideal.ofBits_def, Ideal.ofBits_zero_f32]
  rfl

/-- Lane 0 of what the body leaves: what the output block held there, plus the sum over the block of the elements'
    terms, at the ratio, the valid total and the non-empty count the parameter row holds in lanes 0, 1, 2 and the bin
    counts the count row holds in lanes 0 … 9. -/
theorem body_lane0 (x0 x1 x2 : FVec Ideal S32x16384 .f32) (x3 x4 xo : FVec Ideal S1x128 .f32) :
    body (F := Ideal) x0 x1 x2 x3 x4 xo (ix2 0 0) = xo (ix2 0 0) + ∑ r : Fin 32, ∑ l : Fin 16384,
      term (x3 (ix2 0 0)) (x3 (ix2 0 1)) (x3 (ix2 0 2)) (fun b : Fin 10 => x4 (ix2 0 ⟨b.val, by omega⟩))
        (x0 (ix2 r l)) (x1 (ix2 r l)) (x2 (ix2 r l)) := by
  unfold body
  refine (pay1_lane0 ..).trans ?_
  refine congrArg (xo (ix2 0 0) + ·) (Finset.sum_congr rfl fun r _ => Finset.sum_congr rfl fun l _ => ?_)
  rw [pay12_apply, pay7_apply, pay8_apply]
  unfold k2_pay3 k2_pay4 k2_pay13 k2_pay10 k2_pay5
  dsimp only
  rw [shapeCast_self, ld_lane x3 0 (by omega), ld_lane x3 1 (by omega), ld_lane x3 2 (by omega), slice_lane x4 9 (by omega),
    slice_lane x4 0 (by omega)]
  rfl

end ideal

variable (V : (c : Dev nD) → (b : Ref sig .tc) → Buf (Elt Ideal) ((c : Thread nD τ).loc b))

/-- The three arrays, the parameter row and the row of bin counts as the region finds them, and the output array as it
    leaves it. -/
abbrev arrP (c : Dev nD) : S32x1048576.Idx → EReal := V c (Pipeline.arrRef spec2 0)
abbrev arrT (c : Dev nD) : S32x1048576.Idx → EReal := V c (Pipeline.arrRef spec2 1)
abbrev arrL (c : Dev nD) : S32x1048576.Idx → EReal := V c (Pipeline.arrRef spec2 2)
abbrev prm (c : Dev nD) : S1x128.Idx → EReal := V c (Pipeline.arrRef spec2 3)
abbrev cnt (c : Dev nD) : S1x128.Idx → EReal := V c (Pipeline.arrRef spec2 4)
abbrev outArr (c : Dev nD) : S1x128.Idx → EReal := (dat2 (F := Ideal) V c).arrAt 5 cfg2.N

/-- The region's grid has sixty-four points. -/
theorem N64 : cfg2.N = 64 := N_2

/-- A point of the region's grid as a number below sixty-four. -/
abbrev pt64 (t : Fin cfg2.N) : Fin 64 := ⟨t.val, Nat.lt_of_lt_of_eq t.isLt N_2⟩

/-- The index maps of the five input windows, decided over the grid: a data window's block at point `t` is column
    block `t`; the two rows' windows never move. -/
theorem idx_in : ∀ t : Fin cfg2.N,
    win2_0.index t (0 : Fin 2) = 0 ∧ win2_0.index t (1 : Fin 2) = t.val ∧
    win2_1.index t (0 : Fin 2) = 0 ∧ win2_1.index t (1 : Fin 2) = t.val ∧
    win2_2.index t (0 : Fin 2) = 0 ∧ win2_2.index t (1 : Fin 2) = t.val ∧
    win2_3.index t (0 : Fin 2) = 0 ∧ win2_3.index t (1 : Fin 2) = 0 ∧
    win2_4.index t (0 : Fin 2) = 0 ∧ win2_4.index t (1 : Fin 2) = 0 :=
  (by decide +kernel : ∀ t : Fin grid2.N, _)

/-- Window 0's block at point `t` is column block `t` of the first array. -/
theorem blkP_apply (c : Dev nD) (t : Fin cfg2.N) (r : Fin 32) (l : Fin 16384) :
    (iblk2 V c 0 t : FVec Ideal S32x16384 .f32) (ix2 r l) = arrP V c (ix2 r (KBlock.colAt (pt64 t) l)) := by
  unfold iblk2
  rw [View.read_apply]
  show V c (Pipeline.arrRef spec2 0) _ = V c (Pipeline.arrRef spec2 0) _
  refine congrArg _ (funext fun a => Fin.ext ?_)
  obtain ⟨e0, e1, -⟩ := idx_in t
  match a with
  | ⟨0, _⟩ => show win2_0.index t (0 : Fin 2) * 32 + 1 * r.val = r.val; rw [e0]; omega
  | ⟨1, _⟩ => show win2_0.index t (1 : Fin 2) * 16384 + 1 * l.val = t.val * 16384 + l.val; rw [e1]; omega

/-- The parameter row's window at any point is the whole row. -/
theorem blkPrm_apply (c : Dev nD) (t : Fin cfg2.N) (j : Fin 128) :
    (iblk2 V c 3 t : FVec Ideal S1x128 .f32) (ix2 0 j) = prm V c (ix2 0 j) := by
  unfold iblk2
  rw [View.read_apply]
  show V c (Pipeline.arrRef spec2 3) _ = V c (Pipeline.arrRef spec2 3) _
  refine congrArg _ (funext fun a => Fin.ext ?_)
  obtain ⟨-, -, -, -, -, -, e0, e1, -⟩ := idx_in t
  match a with
  | ⟨0, _⟩ => show win2_3.index t (0 : Fin 2) * 1 + 1 * 0 = 0; rw [e0]
  | ⟨1, _⟩ => show win2_3.index t (1 : Fin 2) * 128 + 1 * j.val = j.val; rw [e1]; omega

/-- Window 1's block at point `t` is column block `t` of the second array. -/
theorem blkT_apply (c : Dev nD) (t : Fin cfg2.N) (r : Fin 32) (l : Fin 16384) :
    (iblk2 V c 1 t : FVec Ideal S32x16384 .f32) (ix2 r l) = arrT V c (ix2 r (KBlock.colAt (pt64 t) l)) := by
  unfold iblk2
  rw [View.read_apply]
  show V c (Pipeline.arrRef spec2 1) _ = V c (Pipeline.arrRef spec2 1) _
  refine congrArg _ (funext fun a => Fin.ext ?_)
  obtain ⟨-, -, e0, e1, -⟩ := idx_in t
  match a with
  | ⟨0, _⟩ => show win2_1.index t (0 : Fin 2) * 32 + 1 * r.val = r.val; rw [e0]; omega
  | ⟨1, _⟩ => show win2_1.index t (1 : Fin 2) * 16384 + 1 * l.val = t.val * 16384 + l.val; rw [e1]; omega

/-- Window 2's block at point `t` is column block `t` of the third array. -/
theorem blkL_apply (c : Dev nD) (t : Fin cfg2.N) (r : Fin 32) (l : Fin 16384) :
    (iblk2 V c 2 t : FVec Ideal S32x16384 .f32) (ix2 r l) = arrL V c (ix2 r (KBlock.colAt (pt64 t) l)) := by
  unfold iblk2
  rw [View.read_apply]
  show V c (Pipeline.arrRef spec2 2) _ = V c (Pipeline.arrRef spec2 2) _
  refine congrArg _ (funext fun a => Fin.ext ?_)
  obtain ⟨-, -, -, -, e0, e1, -⟩ := idx_in t
  match a with
  | ⟨0, _⟩ => show win2_2.index t (0 : Fin 2) * 32 + 1 * r.val = r.val; rw [e0]; omega
  | ⟨1, _⟩ => show win2_2.index t (1 : Fin 2) * 16384 + 1 * l.val = t.val * 16384 + l.val; rw [e1]; omega

/-- The count row's window at any point is the whole row. -/
theorem blkCnt_apply (c : Dev nD) (t : Fin cfg2.N) (j : Fin 128) :
    (iblk2 V c 4 t : FVec Ideal S1x128 .f32) (ix2 0 j) = cnt V c (ix2 0 j) := by
  unfold iblk2
  rw [View.read_apply]
  show V c (Pipeline.arrRef spec2 4) _ = V c (Pipeline.arrRef spec2 4) _
  refine congrArg _ (funext fun a => Fin.ext ?_)
  obtain ⟨-, -, -, -, -, -, -, -, e0, e1⟩ := idx_in t
  match a with
  | ⟨0, _⟩ => show win2_4.index t (0 : Fin 2) * 1 + 1 * 0 = 0; rw [e0]
  | ⟨1, _⟩ => show win2_4.index t (1 : Fin 2) * 128 + 1 * j.val = j.val; rw [e1]; omega

/-- One point's contribution: the sum over column block `t` of the elements' terms. -/
def contrib (c : Dev nD) (t : Fin 64) : EReal :=
  ∑ r : Fin 32, ∑ l : Fin 16384, term (prm V c (ix2 0 0)) (prm V c (ix2 0 1)) (prm V c (ix2 0 2))
    (fun b : Fin 10 => cnt V c (ix2 0 ⟨b.val, by omega⟩))
    (arrP V c (ix2 r (KBlock.colAt t l))) (arrT V c (ix2 r (KBlock.colAt t l))) (arrL V c (ix2 r (KBlock.colAt t l)))

/-- At point `t` the body adds the point's contribution into lane 0 of what the output block held. -/
theorem body_point (c : Dev nD) (t : Fin cfg2.N) (xo : FVec Ideal S1x128 .f32) :
    body (F := Ideal) (iblk2 V c 0 t) (iblk2 V c 1 t) (iblk2 V c 2 t) (iblk2 V c 3 t) (iblk2 V c 4 t) xo (ix2 0 0)
      = xo (ix2 0 0) + contrib V c (pt64 t) := by
  refine (body_lane0 (iblk2 V c 0 t) (iblk2 V c 1 t) (iblk2 V c 2 t) (iblk2 V c 3 t) (iblk2 V c 4 t) xo).trans ?_
  unfold contrib
  refine congrArg (xo (ix2 0 0) + ·) (Finset.sum_congr rfl fun r _ => Finset.sum_congr rfl fun l _ => ?_)
  rw [blkP_apply V c t r l, blkT_apply V c t r l, blkL_apply V c t r l, blkPrm_apply V c t 0, blkPrm_apply V c t 1,
    blkPrm_apply V c t 2]
  refine congrArg (fun cs => term _ _ _ cs _ _ _) (funext fun b => ?_)
  exact blkCnt_apply V c t ⟨b.val, by omega⟩

/-- The first point: lane 0 of the output block after it is the point's contribution. -/
theorem point_A (c : Dev nD) (t : Fin cfg2.N) (h0 : t.val % 64 = 0) :
    (outsAt2 V c t.val t.isLt : FVec Ideal S1x128 .f32) (ix2 0 0) = contrib V c (pt64 t) := by
  rw [outsAt2_A V c t h0]
  refine (congrFun (out_A (F := Ideal) c (grid2.coords t) (ms2_0 t) (hs2_0 t) (ms2_1 t) (hs2_1 t) (ms2_2 t) (hs2_2 t) (ms2_3 t)
    (hs2_3 t) (ms2_4 t) (hs2_4 t) (ms2_5 t) (hs2_5 t) ((hcond2_0 t).mpr h0) (iblk2 V c 0 t) (iblk2 V c 1 t) (iblk2 V c 2 t)
    (iblk2 V c 3 t) (iblk2 V c 4 t)) (ix2 0 0)).trans ?_
  refine (body_point V c t (k2_pay2 (F := Ideal))).trans ?_
  show Ideal.ofBits .f32 0x00000000#32 + _ = _
  rw [Ideal.ofBits_zero_f32, zero_add]

/-- A later point: lane 0 of the output block after it is what the point before left there plus the point's
    contribution. -/
theorem point_B (c : Dev nD) (t : Fin cfg2.N) (h0 : ¬t.val % 64 = 0) :
    (outsAt2 V c t.val t.isLt : FVec Ideal S1x128 .f32) (ix2 0 0)
      = (outsAt2 V c (t.val - 1) (Nat.lt_of_le_of_lt (Nat.sub_le _ _) t.isLt) : FVec Ideal S1x128 .f32) (ix2 0 0)
        + contrib V c (pt64 t) := by
  rw [outsAt2_B V c t h0]
  refine (congrFun (out_B (F := Ideal) c (grid2.coords t) (ms2_0 t) (hs2_0 t) (ms2_1 t) (hs2_1 t) (ms2_2 t) (hs2_2 t) (ms2_3 t)
    (hs2_3 t) (ms2_4 t) (hs2_4 t) (ms2_5 t) (hs2_5 t) (fun h => h0 ((hcond2_0 t).mp h)) (iblk2 V c 0 t) (iblk2 V c 1 t)
    (iblk2 V c 2 t) (iblk2 V c 3 t) (iblk2 V c 4 t)
    (outsAt2 V c (t.val - 1) (Nat.lt_of_le_of_lt (Nat.sub_le _ _) t.isLt))) (ix2 0 0)).trans ?_
  exact body_point V c t (outsAt2 V c (t.val - 1) (Nat.lt_of_le_of_lt (Nat.sub_le _ _) t.isLt))

/-- A point's contribution by the point's number (nothing beyond the grid). -/
def contribN (c : Dev nD) (s : ℕ) : EReal := if hs : s < 64 then contrib V c ⟨s, hs⟩ else 0

theorem contribN_of_lt (c : Dev nD) (s : ℕ) (hs : s < 64) : contribN V c s = contrib V c ⟨s, hs⟩ := by
  unfold contribN
  exact dif_pos hs

/-- Lane 0 of the output block after point `n` is the running sum of the contributions of points 0 … `n`. -/
theorem outsAt_lane0 (c : Dev nD) : ∀ (n : ℕ) (h : n < cfg2.N),
    (outsAt2 V c n h : FVec Ideal S1x128 .f32) (ix2 0 0) = ∑ s ∈ Finset.range (n + 1), contribN V c s
  | 0, h => by
    refine (point_A V c ⟨0, h⟩ rfl).trans ?_
    rw [Finset.sum_range_one]
    exact (contribN_of_lt V c 0 (by decide)).symm
  | n + 1, h => by
    have hN : n + 1 < 64 := Nat.lt_of_lt_of_eq h N_2
    have hB : ¬(⟨n + 1, h⟩ : Fin cfg2.N).val % 64 = 0 := by dsimp only; omega
    refine (point_B V c ⟨n + 1, h⟩ hB).trans ?_
    show (outsAt2 V c n (Nat.lt_of_succ_lt h) : FVec Ideal S1x128 .f32) (ix2 0 0) + contrib V c ⟨n + 1, hN⟩ = _
    rw [outsAt_lane0 c n (Nat.lt_of_succ_lt h), Finset.sum_range_succ _ (n + 1)]
    exact congrArg (_ + ·) (contribN_of_lt V c (n + 1) hN).symm

/-- The last point is on the grid. -/
theorem h63 : 63 < cfg2.N := Nat.lt_of_lt_of_eq (by decide) N_2.symm

/-- What the output block holds after the last point. -/
abbrev result (c : Dev nD) : Buf (Elt Ideal) ((c : Thread nD τ).loc main_v39) := outsAt2 V c 63 h63

/-- The output window never moves, decided over the grid. -/
theorem idx_out : ∀ t : Fin cfg2.N, win2_5.index t (0 : Fin 2) = 0 ∧ win2_5.index t (1 : Fin 2) = 0 :=
  (by decide +kernel : ∀ t : Fin grid2.N, _)

/-- The one write-back, after the last point, writes what the output block holds then: its block is the whole row. -/
theorem flushed_eq (c : Dev nD) (t : Fin cfg2.N) (hf : (cfg2.win 5).flush t = true) :
    (dat2 (F := Ideal) V c).flushed 5 t = ((cfg2.win 5).blk t).view.read (Elt Ideal) (result V c) := by
  have hN : cfg2.N = 64 := N_2
  have h3 : t.val = 63 := by have := (flush2_5 t).mp hf; have := t.isLt; omega
  obtain rfl : t = ⟨63, h63⟩ := Fin.ext h3
  show (cfg2.win 5).cut (grid2.coords ⟨63, h63⟩) ((dat2 (F := Ideal) V c).after 5 ⟨63, h63⟩) = _
  rw [after2_5]
  have hz' : (fun a => win2_5.index ⟨63, h63⟩ a * main_v39.ty.shape.size a) = fun _ => 0 := funext fun a => by
    obtain ⟨e0, e1⟩ := idx_out ⟨63, h63⟩
    match a with
    | ⟨0, _⟩ => show win2_5.index ⟨63, h63⟩ (0 : Fin 2) * 1 = 0; rw [e0]
    | ⟨1, _⟩ => show win2_5.index ⟨63, h63⟩ (1 : Fin 2) * 128 = 0; rw [e1]
  exact (Memref.read_access_unit_zero (Elt Ideal) main_v39 hz' (fun a => by rw [congrFun hz' a]; simp) (result V c)).symm

/-- So the output array ends holding what the output block holds after the last point. -/
theorem final_o (c : Dev nD) : outArr V c = result V c :=
  (dat2 (F := Ideal) V c).arrAt_eq_of_cover 5 (result V c) (flushed_eq V c) fun i =>
    ⟨⟨63, h63⟩, (flush2_5 ⟨63, h63⟩).mpr rfl, by
      show i ∈ ((View.whole main_v39).slice (win2_5.rect ⟨63, h63⟩)).set
      rw [View.set_slice_whole, Rect.mem_set_unit]
      intro a
      obtain ⟨e0, e1⟩ := idx_out ⟨63, h63⟩
      have h0 : (i 0 : Nat) < 1 := (i 0).isLt
      have h1 : (i 1 : Nat) < 128 := (i 1).isLt
      match a with
      | ⟨0, _⟩ => show win2_5.index ⟨63, h63⟩ (0 : Fin 2) * 1 ≤ (i 0 : Nat) ∧ (i 0 : Nat) < win2_5.index ⟨63, h63⟩ (0 : Fin 2) * 1 + 1
                  rw [e0]; omega
      | ⟨1, _⟩ => show win2_5.index ⟨63, h63⟩ (1 : Fin 2) * 128 ≤ (i 1 : Nat) ∧ (i 1 : Nat) < win2_5.index ⟨63, h63⟩ (1 : Fin 2) * 128 + 128
                  rw [e1]; omega⟩

theorem final_lane0 (c : Dev nD) :
    outArr V c (ix2 0 0) = weighted (arrP V c) (arrT V c) (arrL V c) (prm V c (ix2 0 0)) (prm V c (ix2 0 1)) (prm V c (ix2 0 2))
      (fun b : Fin 10 => cnt V c (ix2 0 ⟨b.val, by omega⟩)) := by
  rw [final_o V c]
  refine (outsAt_lane0 V c 63 h63).trans ?_
  rw [Finset.sum_range]
  refine (Finset.sum_congr rfl fun t _ => contribN_of_lt V c t.val t.isLt).trans ?_
  unfold contrib weighted
  exact KBlock.sum_blocks (fun i => term (prm V c (ix2 0 0)) (prm V c (ix2 0 1)) (prm V c (ix2 0 2))
    (fun b : Fin 10 => cnt V c (ix2 0 ⟨b.val, by omega⟩)) (arrP V c i) (arrT V c i) (arrL V c i))

end Cert.KernelIdeal.Region2

end
-- ==== Proof.LibScatterScalar.lean ====
import Idealize.ShloMosaic.PureOps.ShapeOps
import Idealize.ShloMosaic.Lib.ValueIdx

/-!
A scatter of ONE rank-zero update changes at most one element.

The host's scatter is a left fold over the update's indices. A rank-zero update has one index, so the fold is one
step: where the update's result index lies inside the operand, that element becomes the body applied to the old
element and the update; every other element stays. Stated for any dimension record, operand shape, index shape and
body, from the one fact "the update lands at `i₀`".
-/

namespace Cert.LibScatterScalar

open Idealize.ShloMosaic Idealize.ShloMosaic.ValueIdx

/-- One rank-zero update landing at `i₀`: element `i₀` becomes `f (x i₀) u`, the others keep their values. -/
theorem scatter_scalar {α : Type} {s si : Shape} {w : Nat} (d : ScatterDims s si ⟨0, ![]⟩) (f : α → α → α) (x : s.Idx → α)
    (idx : IVec si w) (u : (⟨0, ![]⟩ : Shape).Idx → α) (i₀ : s.Idx) (h : d.resultIdx? ix0 idx = some i₀) (i : s.Idx) :
    Host.scatter d f x idx u i = if i = i₀ then f (x i₀) (u ix0) else x i := by
  unfold Host.scatter
  have e : ∀ n, (⟨0, ![]⟩ : Shape).rowMajor.symm n = ix0 := fun n => funext fun a => a.elim0
  simp only [e, h]
  rw [show List.finRange (⟨0, ![]⟩ : Shape).numel = [⟨0, by decide⟩] from rfl]
  rfl

end Cert.LibScatterScalar
-- ==== Proof.Glue.lean ====
import proofs.«149772_j55929064129141_1_alg».proof.Proof.Gen.KernelIdeal.Frame
import proofs.«149772_j55929064129141_1_alg».proof.Proof.Spec
import proofs.«149772_j55929064129141_1_alg».proof.Proof.KBlock
import proofs.«149772_j55929064129141_1_alg».proof.Proof.Region0
import proofs.«149772_j55929064129141_1_alg».proof.Proof.Region1
import proofs.«149772_j55929064129141_1_alg».proof.Proof.Region2
import proofs.«149772_j55929064129141_1_alg».proof.Proof.LibScatterScalar
import Idealize.ShloMosaic.Lib.StableHlo.Run
import Idealize.ShloMosaic.Lib.ValueIdx
import Idealize.ShloMosaic.Lib.ValueIdxRank1
import Idealize.ShloMosaic.Lib.IdealHost
import Idealize.ShloMosaic.Lib.Pipeline.Value
import Idealize.ShloMosaic.PureOps.Ideal.Laws
import Idealize.ShloMosaic.Lib.Tactic

noncomputable section

namespace Cert.KernelIdeal.Glue

open Cert.KernelIdeal Cert.KernelIdeal.Gen Idealize.ShloMosaic Idealize.ShloMosaic.TcCoe Idealize.SL.Sem
open Idealize.ShloMosaic.ValueIdx HistDice
open Idealize.ShloMosaic.Pipeline (Dat)

variable (m : (ℓ : Loc nD τ sig) → Buf (Elt Ideal) ℓ) (ρ : Dev nD → PrngReg)

/-- The three arguments as launched. -/
abbrev argP (c : Dev nD) : S32x1048576.Idx → EReal := m ((c : Thread nD τ).loc main_arg0)
abbrev argT (c : Dev nD) : S32x1048576.Idx → EReal := m ((c : Thread nD τ).loc main_arg1)
abbrev argL (c : Dev nD) : S32x1048576.Idx → EReal := m ((c : Thread nD τ).loc main_arg2)

/-! ## Reading a lane of a row through a one-element slice and a reshape to rank zero -/

theorem slice_lane {α : Type} (x : S1x128.Idx → α) (k : Nat) (hk : k < 128) (h : S1x128.Slices ![0, k] S1x1)
    (hc : S1x1.ShapeCasts S_) (i : S_.Idx) :
    shapeCast S_ (extractStridedSlice S1x1 ![0, k] x h) hc i = x (ix2 0 ⟨k, hk⟩) := by
  refine (shapeCast_apply _ hc i (ix2 0 0) ?_).trans (extractStridedSlice_apply _ x h (ix2 0 0) (ix2 0 ⟨k, hk⟩) ?_)
  · have h1 := (S1x1.rowMajor (ix2 0 0)).isLt
    have h2 := (S_.rowMajor i).isLt
    have e1 : S1x1.numel = 1 := rfl
    have e2 : S_.numel = 1 := rfl
    omega
  · intro a
    fin_cases a
    · rfl
    · show k = k + 0
      omega

/-- Region 0's output row, as region 0's module names it. -/
abbrev out0 (c : Dev nD) : S1x128.Idx → EReal := Region0.outArr (V0 m ρ) c

theorem W1_v0 (c : Dev nD) : (W1 m ρ c (Proc.devRef .tc main_v0) : S1x128.Idx → EReal) = out0 m ρ c := W1_arr m ρ c 3

theorem v9_W2 (c : Dev nD) :
    (W2 m ρ c (Proc.devRef .tc main_v9) : S_.Idx → EReal) = fun _ => denom (argP m c) (argT m c) := by
  show StableHlo.after hostOps1 _ (Proc.devRef .tc main_v9) = _
  after_results
  funext i
  refine (addf_apply _ _ i).trans ?_
  refine (congrArg₂ (· + ·) (slice_lane _ 0 (by omega) _ _ i) (slice_lane _ 1 (by omega) _ _ i)).trans ?_
  rw [W1_v0]
  exact congrArg₂ (· + ·) (Region0.final_lane0 (V0 m ρ) c) (Region0.final_lane1 (V0 m ρ) c)

/-! ## The scalar terms of the first host stretch, over any row -/

theorem ratio_term (x : S1x128.Idx → EReal) (h0 : S1x128.Slices ![0, 0] S1x1) (h1 : S1x128.Slices ![0, 1] S1x1)
    (h2 : S1x128.Slices ![0, 2] S1x1) (hc : S1x1.ShapeCasts S_) (i : S_.Idx) :
    Host.divf (F := Ideal)
        (mulf (constant (F := Ideal) S_ .f32 0x40000000#32) (fun i => shapeCast S_ (extractStridedSlice S1x1 ![0, 2] x h2) hc i))
        (addf (fun i => shapeCast S_ (extractStridedSlice S1x1 ![0, 0] x h0) hc i)
          (fun i => shapeCast S_ (extractStridedSlice S1x1 ![0, 1] x h1) hc i)) i
      = Ideal.div (two * x (ix2 0 2)) (x (ix2 0 0) + x (ix2 0 1)) := by
  show Ideal.div (Ideal.ofBits .f32 0x40000000#32 * shapeCast S_ (extractStridedSlice S1x1 ![0, 2] x h2) hc i)
      (shapeCast S_ (extractStridedSlice S1x1 ![0, 0] x h0) hc i + shapeCast S_ (extractStridedSlice S1x1 ![0, 1] x h1) hc i) = _
  rw [slice_lane x 0 (by omega), slice_lane x 1 (by omega), slice_lane x 2 (by omega)]
  rfl

theorem validTotal_term (x : S1x128.Idx → EReal) (h3 : S1x128.Slices ![0, 3] S1x1) (hc : S1x1.ShapeCasts S_) (i : S_.Idx) :
    maximumf (F := Ideal) (fun i => shapeCast S_ (extractStridedSlice S1x1 ![0, 3] x h3) hc i)
        (constant (F := Ideal) S_ .f32 0x3F800000#32) i
      = max (x (ix2 0 3)) one := by
  show max (shapeCast S_ (extractStridedSlice S1x1 ![0, 3] x h3) hc i) (Ideal.ofBits .f32 0x3F800000#32) = _
  rw [slice_lane x 3 (by omega)]
  rfl

theorem out0_lane0 (c : Dev nD) : out0 m ρ c (ix2 0 0) = total (argP m c) := Region0.final_lane0 (V0 m ρ) c
theorem out0_lane1 (c : Dev nD) : out0 m ρ c (ix2 0 1) = total (argT m c) := Region0.final_lane1 (V0 m ρ) c
theorem out0_lane2 (c : Dev nD) : out0 m ρ c (ix2 0 2) = dotPT (argP m c) (argT m c) := Region0.final_lane2 (V0 m ρ) c
theorem out0_lane3 (c : Dev nD) : out0 m ρ c (ix2 0 3) = validCount (argL m c) := Region0.final_lane3 (V0 m ρ) c

/-- Region 0's four lanes give the ratio. -/
theorem ratio_out0 (c : Dev nD) :
    Ideal.div (two * out0 m ρ c (ix2 0 2)) (out0 m ρ c (ix2 0 0) + out0 m ρ c (ix2 0 1)) = ratio (argP m c) (argT m c) := by
  unfold ratio denom
  rw [out0_lane0, out0_lane1, out0_lane2]

theorem v11_W2 (c : Dev nD) :
    (W2 m ρ c (Proc.devRef .tc main_v11) : S_.Idx → EReal) = fun _ => ratio (argP m c) (argT m c) := by
  show StableHlo.after hostOps1 _ (Proc.devRef .tc main_v11) = _
  after_results
  funext i
  refine (ratio_term _ _ _ _ _ i).trans ?_
  rw [W1_v0]
  exact ratio_out0 m ρ c

theorem v12_W2 (c : Dev nD) :
    (W2 m ρ c (Proc.devRef .tc main_v12) : S_.Idx → EReal) = fun _ => validTotal (argL m c) := by
  show StableHlo.after hostOps1 _ (Proc.devRef .tc main_v12) = _
  after_results
  funext i
  refine (validTotal_term _ _ _ i).trans ?_
  rw [W1_v0, out0_lane3]
  rfl

/-! ## Where the three scatters land -/

theorem land0 : scatter_S1x128_S2_S__n_01_01_0.resultIdx? ix0 (concatenate S2 0 [⟨S1, broadcastInDim S1 ![] bcast_S_S1 (constantI S_ 32 0#32)⟩, ⟨S1, broadcastInDim S1 ![] bcast_S_S1 (constantI S_ 32 0#32)⟩] concatenates_S1_S1_S2_d0) = some (ix2 (0 : Fin 1) (0 : Fin 128)) := by decide
theorem land1 : scatter_S1x128_S2_S__n_01_01_0.resultIdx? ix0 (concatenate S2 0 [⟨S1, broadcastInDim S1 ![] bcast_S_S1 (constantI S_ 32 0#32)⟩, ⟨S1, broadcastInDim S1 ![] bcast_S_S1 (constantI S_ 32 1#32)⟩] concatenates_S1_S1_S2_d0) = some (ix2 (0 : Fin 1) (1 : Fin 128)) := by decide
theorem land2 : scatter_S1x128_S2_S__n_01_01_0.resultIdx? ix0 (concatenate S2 0 [⟨S1, broadcastInDim S1 ![] bcast_S_S1 (constantI S_ 32 0#32)⟩, ⟨S1, broadcastInDim S1 ![] bcast_S_S1 (constantI S_ 32 2#32)⟩] concatenates_S1_S1_S2_d0) = some (ix2 (0 : Fin 1) (2 : Fin 128)) := by decide

theorem ix2_ne {a b : Fin 128} (h : a ≠ b) : ix2 (0 : Fin 1) a ≠ ix2 (0 : Fin 1) b := fun e => h (congrFun e 1)

theorem v17_W2 (c : Dev nD) :
    (W2 m ρ c (Proc.devRef .tc main_v17) : S1x128.Idx → EReal) (ix2 0 0) = ratio (argP m c) (argT m c) := by
  show StableHlo.after hostOps1 _ (Proc.devRef .tc main_v17) _ = _
  after_results
  refine (Cert.LibScatterScalar.scatter_scalar _ _ _ _ _ (ix2 0 0) land0 _).trans ?_
  rw [if_pos rfl]
  refine (ratio_term _ _ _ _ _ ix0).trans ?_
  rw [W1_v0]
  exact ratio_out0 m ρ c

/-! ## Region 1: its arrays at entry, its output row, what passes through -/

theorem arg0_W2 (c : Dev nD) : (W2 m ρ c (Proc.devRef .tc main_arg0) : S32x1048576.Idx → EReal) = argP m c := by
  have e : W2 m ρ c (Proc.devRef .tc main_arg0) = W1 m ρ c (Proc.devRef .tc main_arg0) := by
    show StableHlo.after hostOps1 _ (Proc.devRef .tc main_arg0) = _
    after_results
  exact e.trans ((W1_arr m ρ c 0).trans (((dat0 (V0 m ρ) c).arrAt_in 0 rfl _).trans (A_eq0 (V0 m ρ) c 0)))
theorem arg1_W2 (c : Dev nD) : (W2 m ρ c (Proc.devRef .tc main_arg1) : S32x1048576.Idx → EReal) = argT m c := by
  have e : W2 m ρ c (Proc.devRef .tc main_arg1) = W1 m ρ c (Proc.devRef .tc main_arg1) := by
    show StableHlo.after hostOps1 _ (Proc.devRef .tc main_arg1) = _
    after_results
  exact e.trans ((W1_arr m ρ c 1).trans (((dat0 (V0 m ρ) c).arrAt_in 1 rfl _).trans (A_eq0 (V0 m ρ) c 1)))
theorem arg2_W2 (c : Dev nD) : (W2 m ρ c (Proc.devRef .tc main_arg2) : S32x1048576.Idx → EReal) = argL m c := by
  have e : W2 m ρ c (Proc.devRef .tc main_arg2) = W1 m ρ c (Proc.devRef .tc main_arg2) := by
    show StableHlo.after hostOps1 _ (Proc.devRef .tc main_arg2) = _
    after_results
  exact e.trans ((W1_arr m ρ c 2).trans (((dat0 (V0 m ρ) c).arrAt_in 2 rfl _).trans (A_eq0 (V0 m ρ) c 2)))

/-- Region 1's output row, as region 1's module names it. -/
abbrev out1 (c : Dev nD) : S1x128.Idx → EReal := Region1.outArr (V2 m ρ) c

theorem W3_v18 (c : Dev nD) : (W3 m ρ c (Proc.devRef .tc main_v18) : S1x128.Idx → EReal) = out1 m ρ c := W3_arr m ρ c 4

/-- The ten bin counts at the ratio. -/
abbrev counts (c : Dev nD) : Fin 10 → EReal := count (argP m c) (argT m c) (argL m c) (ratio (argP m c) (argT m c))

theorem out1_lane (c : Dev nD) (b : Fin 10) : out1 m ρ c (ix2 0 ⟨b.val, by omega⟩) = counts m c b := by
  refine (Region1.final_lane (V2 m ρ) c b).trans ?_
  have eP : Region1.arrP (V2 m ρ) c = argP m c := arg0_W2 m ρ c
  have eT : Region1.arrT (V2 m ρ) c = argT m c := arg1_W2 m ρ c
  have eL : Region1.arrL (V2 m ρ) c = argL m c := arg2_W2 m ρ c
  have eR : Region1.prm (V2 m ρ) c (ix2 0 0) = ratio (argP m c) (argT m c) := v17_W2 m ρ c
  rw [eP, eT, eL, eR]

theorem v9_W3 (c : Dev nD) :
    (W3 m ρ c (Proc.devRef .tc main_v9) : S_.Idx → EReal) = fun _ => denom (argP m c) (argT m c) :=
  (W3_of_ne m ρ c main_v9 (by decide)).trans (v9_W2 m ρ c)
theorem v11_W3 (c : Dev nD) :
    (W3 m ρ c (Proc.devRef .tc main_v11) : S_.Idx → EReal) = fun _ => ratio (argP m c) (argT m c) :=
  (W3_of_ne m ρ c main_v11 (by decide)).trans (v11_W2 m ρ c)
theorem v12_W3 (c : Dev nD) :
    (W3 m ρ c (Proc.devRef .tc main_v12) : S_.Idx → EReal) = fun _ => validTotal (argL m c) :=
  (W3_of_ne m ρ c main_v12 (by decide)).trans (v12_W2 m ρ c)
theorem arg0_W3 (c : Dev nD) : (W3 m ρ c (Proc.devRef .tc main_arg0) : S32x1048576.Idx → EReal) = argP m c :=
  ((W3_arr m ρ c 0).trans (((dat1 (V2 m ρ) c).arrAt_in 0 rfl _).trans (A_eq1 (V2 m ρ) c 0))).trans (arg0_W2 m ρ c)
theorem arg1_W3 (c : Dev nD) : (W3 m ρ c (Proc.devRef .tc main_arg1) : S32x1048576.Idx → EReal) = argT m c :=
  ((W3_arr m ρ c 1).trans (((dat1 (V2 m ρ) c).arrAt_in 1 rfl _).trans (A_eq1 (V2 m ρ) c 1))).trans (arg1_W2 m ρ c)
theorem arg2_W3 (c : Dev nD) : (W3 m ρ c (Proc.devRef .tc main_arg2) : S32x1048576.Idx → EReal) = argL m c :=
  ((W3_arr m ρ c 2).trans (((dat1 (V2 m ρ) c).arrAt_in 2 rfl _).trans (A_eq1 (V2 m ρ) c 2))).trans (arg2_W2 m ρ c)

/-! ## The second host stretch: the ten counts, how many are positive, the parameter row -/

theorem slice10_lane {α : Type} (x : S1x128.Idx → α) (hs : S1x128.Slices ![0, 0] S1x10) (hc : S1x10.ShapeCasts S10) (b : Fin 10) :
    shapeCast S10 (extractStridedSlice S1x10 ![0, 0] x hs) hc (ix1 b) = x (ix2 0 ⟨b.val, by omega⟩) := by
  refine (shapeCast_apply _ hc (ix1 b) (ix2 0 b) ?_).trans
    (extractStridedSlice_apply _ x hs (ix2 0 b) (ix2 0 ⟨b.val, by omega⟩) ?_)
  · rw [Shape.rowMajor_val_two, Shape.rowMajor_val_one]
    show 0 * 10 + b.val = b.val
    omega
  · intro a
    fin_cases a
    · rfl
    · show b.val = 0 + b.val
      omega

theorem nonempty_term (x : S1x128.Idx → EReal) (hs : S1x128.Slices ![0, 0] S1x10) (hc : S1x10.ShapeCasts S10)
    (hb : S_.BroadcastsInDim S10 (![] : Fin 0 → Fin S10.rank)) (hr : S10.ReducesTo [0] S_) (hn : 0 < S_.numel) (i : S_.Idx) :
    maximumf (F := Ideal)
        (Host.reduceAdd (F := Ideal)
          (uitofp (F := Ideal) .f32
            (cmpf (F := Ideal) .ogt (fun i => shapeCast S10 (extractStridedSlice S1x10 ![0, 0] x hs) hc i)
              (broadcastInDim S10 ![] hb (constant (F := Ideal) S_ .f32 0x00000000#32))))
          (constant (F := Ideal) S_ .f32 0x00000000#32) hr hn)
        (constant (F := Ideal) S_ .f32 0x3F800000#32) i
      = nonempty (fun b : Fin 10 => x (ix2 0 ⟨b.val, by omega⟩)) := by
  unfold nonempty
  refine congrArg (fun z => max z one) ?_
  refine (hostReduceAdd_apply _ _ hr hn i).trans ?_
  refine (Ideal.hostReduceAdd_total hr (fun b => b.elim0) _ _ i).trans ?_
  rw [constant_apply, Ideal.ofBits_zero_f32, zero_add, ← Equiv.sum_comp (idxEquiv1 (n := 10)).symm]
  refine Finset.sum_congr rfl fun b _ => ?_
  show (FloatOps.uitofp (F := Ideal) .f32 (Ideal.cmp .ogt (shapeCast S10 (extractStridedSlice S1x10 ![0, 0] x hs) hc (ix1 b))
    (Ideal.ofBits .f32 0x00000000#32)) : EReal) = _
  rw [KBlock.bit_uitofp, slice10_lane x hs hc b, Ideal.ofBits_zero_f32]

theorem nonempty_out1 (c : Dev nD) : nonempty (fun b : Fin 10 => out1 m ρ c (ix2 0 ⟨b.val, by omega⟩)) = nonempty (counts m c) :=
  congrArg nonempty (funext fun b => out1_lane m ρ c b)

theorem v25_W4 (c : Dev nD) :
    (W4 m ρ c (Proc.devRef .tc main_v25) : S_.Idx → EReal) = fun _ => nonempty (counts m c) := by
  show StableHlo.after hostOps2 _ (Proc.devRef .tc main_v25) = _
  after_results
  funext i
  refine (nonempty_term _ _ _ _ _ _ i).trans ?_
  rw [W3_v18]
  exact nonempty_out1 m ρ c

/-- The parameter row of region 2: lanes 0, 1, 2. -/
theorem v38_W4_lane0 (c : Dev nD) :
    (W4 m ρ c (Proc.devRef .tc main_v38) : S1x128.Idx → EReal) (ix2 0 0) = ratio (argP m c) (argT m c) := by
  show StableHlo.after hostOps2 _ (Proc.devRef .tc main_v38) _ = _
  after_results
  refine (Cert.LibScatterScalar.scatter_scalar _ _ _ _ _ (ix2 0 2) land2 _).trans ?_
  rw [if_neg (ix2_ne (by decide))]
  refine (Cert.LibScatterScalar.scatter_scalar _ _ _ _ _ (ix2 0 1) land1 _).trans ?_
  rw [if_neg (ix2_ne (by decide))]
  refine (Cert.LibScatterScalar.scatter_scalar _ _ _ _ _ (ix2 0 0) land0 _).trans ?_
  rw [if_pos rfl]
  exact congrFun (v11_W3 m ρ c) ix0

theorem v38_W4_lane1 (c : Dev nD) :
    (W4 m ρ c (Proc.devRef .tc main_v38) : S1x128.Idx → EReal) (ix2 0 1) = validTotal (argL m c) := by
  show StableHlo.after hostOps2 _ (Proc.devRef .tc main_v38) _ = _
  after_results
  refine (Cert.LibScatterScalar.scatter_scalar _ _ _ _ _ (ix2 0 2) land2 _).trans ?_
  rw [if_neg (ix2_ne (by decide))]
  refine (Cert.LibScatterScalar.scatter_scalar _ _ _ _ _ (ix2 0 1) land1 _).trans ?_
  rw [if_pos rfl]
  exact congrFun (v12_W3 m ρ c) ix0

theorem v38_W4_lane2 (c : Dev nD) :
    (W4 m ρ c (Proc.devRef .tc main_v38) : S1x128.Idx → EReal) (ix2 0 2) = nonempty (counts m c) := by
  show StableHlo.after hostOps2 _ (Proc.devRef .tc main_v38) _ = _
  after_results
  refine (Cert.LibScatterScalar.scatter_scalar _ _ _ _ _ (ix2 0 2) land2 _).trans ?_
  rw [if_pos rfl]
  refine (nonempty_term _ _ _ _ _ _ ix0).trans ?_
  rw [W3_v18]
  exact nonempty_out1 m ρ c

theorem v18_W4 (c : Dev nD) : (W4 m ρ c (Proc.devRef .tc main_v18) : S1x128.Idx → EReal) = out1 m ρ c := by
  refine Eq.trans ?_ (W3_v18 m ρ c)
  show StableHlo.after hostOps2 _ (Proc.devRef .tc main_v18) = _
  after_results

theorem v9_W4 (c : Dev nD) :
    (W4 m ρ c (Proc.devRef .tc main_v9) : S_.Idx → EReal) = fun _ => denom (argP m c) (argT m c) := by
  refine Eq.trans ?_ (v9_W3 m ρ c)
  show StableHlo.after hostOps2 _ (Proc.devRef .tc main_v9) = _
  after_results

theorem arg0_W4 (c : Dev nD) : (W4 m ρ c (Proc.devRef .tc main_arg0) : S32x1048576.Idx → EReal) = argP m c := by
  refine Eq.trans ?_ (arg0_W3 m ρ c)
  show StableHlo.after hostOps2 _ (Proc.devRef .tc main_arg0) = _
  after_results
theorem arg1_W4 (c : Dev nD) : (W4 m ρ c (Proc.devRef .tc main_arg1) : S32x1048576.Idx → EReal) = argT m c := by
  refine Eq.trans ?_ (arg1_W3 m ρ c)
  show StableHlo.after hostOps2 _ (Proc.devRef .tc main_arg1) = _
  after_results
theorem arg2_W4 (c : Dev nD) : (W4 m ρ c (Proc.devRef .tc main_arg2) : S32x1048576.Idx → EReal) = argL m c := by
  refine Eq.trans ?_ (arg2_W3 m ρ c)
  show StableHlo.after hostOps2 _ (Proc.devRef .tc main_arg2) = _
  after_results

/-! ## Region 2: the weighted sum; the last host stretch: the loss -/

/-- Region 2's output row, as region 2's module names it. -/
abbrev out2 (c : Dev nD) : S1x128.Idx → EReal := Region2.outArr (V4 m ρ) c

theorem W5_v39 (c : Dev nD) : (W5 m ρ c (Proc.devRef .tc main_v39) : S1x128.Idx → EReal) = out2 m ρ c := W5_arr m ρ c 5

theorem out2_lane0 (c : Dev nD) :
    out2 m ρ c (ix2 0 0) = weighted (argP m c) (argT m c) (argL m c) (ratio (argP m c) (argT m c)) (validTotal (argL m c))
      (nonempty (counts m c)) (counts m c) := by
  refine (Region2.final_lane0 (V4 m ρ) c).trans ?_
  have eP : Region2.arrP (V4 m ρ) c = argP m c := arg0_W4 m ρ c
  have eT : Region2.arrT (V4 m ρ) c = argT m c := arg1_W4 m ρ c
  have eL : Region2.arrL (V4 m ρ) c = argL m c := arg2_W4 m ρ c
  have e0 : Region2.prm (V4 m ρ) c (ix2 0 0) = ratio (argP m c) (argT m c) := v38_W4_lane0 m ρ c
  have e1 : Region2.prm (V4 m ρ) c (ix2 0 1) = validTotal (argL m c) := v38_W4_lane1 m ρ c
  have e2 : Region2.prm (V4 m ρ) c (ix2 0 2) = nonempty (counts m c) := v38_W4_lane2 m ρ c
  have eC : (fun b : Fin 10 => Region2.cnt (V4 m ρ) c (ix2 0 ⟨b.val, by omega⟩)) = counts m c :=
    funext fun b => (congrFun (v18_W4 m ρ c) _).trans (out1_lane m ρ c b)
  rw [eP, eT, eL, e0, e1, e2, eC]

theorem v9_W5 (c : Dev nD) :
    (W5 m ρ c (Proc.devRef .tc main_v9) : S_.Idx → EReal) = fun _ => denom (argP m c) (argT m c) :=
  (W5_of_ne m ρ c main_v9 (by decide)).trans (v9_W4 m ρ c)

theorem loss_term (x : S1x128.Idx → EReal) (d : S_.Idx → EReal) (h0 : S1x128.Slices ![0, 0] S1x1) (hc : S1x1.ShapeCasts S_) (i : S_.Idx) :
    mulf (F := Ideal)
        (subf (F := Ideal) (constant (F := Ideal) S_ .f32 0x3F800000#32)
          (Host.divf (F := Ideal) (fun i => shapeCast S_ (extractStridedSlice S1x1 ![0, 0] x h0) hc i) d))
        (constant (F := Ideal) S_ .f32 0x3F800000#32) i
      = (one - Ideal.div (x (ix2 0 0)) (d i)) * one := by
  show (Ideal.ofBits .f32 0x3F800000#32 - Ideal.div (shapeCast S_ (extractStridedSlice S1x1 ![0, 0] x h0) hc i) (d i))
      * Ideal.ofBits .f32 0x3F800000#32 = _
  rw [slice_lane x 0 (by omega)]
  rfl

/-- What the fold through @main's segments leaves in the result buffer: the loss of the three arguments. -/
theorem result_eq (c : Dev nD) :
    (W6 m ρ c (Proc.devRef .tc main_v44) : S_.Idx → EReal) = fun _ => loss (argP m c) (argT m c) (argL m c) := by
  show StableHlo.after hostOps3 _ (Proc.devRef .tc main_v44) = _
  after_results
  funext i
  refine (loss_term _ _ _ _ i).trans ?_
  rw [W5_v39, out2_lane0, v9_W5]
  rfl

end Cert.KernelIdeal.Glue

end
-- ==== Proof.LibScatterTake.lean ====
import Idealize.ShloMosaic.Lib.ValueIdx
import Idealize.ShloMosaic.Lib.StableHlo.Predicate
import Idealize.ShloMosaic.PureOps.Ideal

/-!
jnp's `zeros(N).at[idx].add(v)` read at one element.

The accumulating scatter into a rank-one operand of `N` elements, its scatter indices an `[n × 1]` column of
positions and its updates a vector of `n` numbers (the operand's one axis inserted and scattered to, the index vector
on axis 1, no window axes): update `j` lands on element `i` exactly when its index word, read signed and not clamped,
is `i`'s position, and is dropped when the word lies outside `0 … N − 1`. Over the extended reals the result's
element `i` is therefore the operand's element plus the sum of the updates whose word is `i`.
-/

noncomputable section

namespace Cert.LibScatterTake
open Idealize.ShloMosaic Idealize.ShloMosaic.ValueIdx Idealize.ShloMosaic.StableHlo.Predicate

variable {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hiv : d.indexVectorDim = 1)

include huw hiw hsd hiv in
/-- The start of update `j`'s window on the operand's axis: its index word read signed. -/
theorem start_eq (idx : IVec ⟨2, ![n, 1]⟩ w) (j : (⟨1, ![n]⟩ : Shape).Idx) :
    d.start j idx 0 = (idx (ixP (j 0))).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hiv]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hiv])]
    apply Fin.ext
    show List.idxOf (0 : Fin 1) d.scatterDimsToOperandDims = 0
    rw [hsd]; simp

include hiw in
/-- No window axes: the window coordinate is zero. -/
theorem window_eq (j : (⟨1, ![n]⟩ : Shape).Idx) : d.window j 0 = 0 := by
  unfold ScatterDims.window
  rw [dif_neg]
  show (0 : Fin 1) ∉ Shape.kept _ d.insertedWindowDims
  rw [hiw]
  simp [Shape.kept]

include huw hiw hsd hiv in
/-- Update `j` lands on element `i` exactly when its index word, read signed, is `i`'s position. -/
theorem resultIdx_eq_some_iff (idx : IVec ⟨2, ![n, 1]⟩ w) (j : (⟨1, ![n]⟩ : Shape).Idx) (i : (⟨1, ![N]⟩ : Shape).Idx) :
    d.resultIdx? j idx = some i ↔ (idx (ixP (j 0))).toInt = ((i 0).val : ℤ) := by
  have hT : ∀ a : Fin 1, d.start j idx a + (d.window j a : ℤ) = (idx (ixP (j 0))).toInt := fun a => by
    have ha : a = 0 := Subsingleton.elim _ _
    subst ha
    rw [start_eq d huw hiw hsd hiv, window_eq d hiw]; simp
  have hi : (i 0).val < N := (i 0).isLt
  have hs : ∀ a : Fin 1, ((⟨1, ![N]⟩ : Shape).size a) = N := fun a => by
    have ha : a = 0 := Subsingleton.elim _ _
    subst ha; rfl
  unfold ScatterDims.resultIdx?
  split
  · rename_i h
    constructor
    · intro hsome
      have h0 := congrArg Fin.val (congrFun (Option.some.inj hsome) 0)
      have hb := (h 0).1
      simp only [hT] at h0 hb
      omega
    · intro hT'
      congr 1
      funext a
      have ha : a = 0 := Subsingleton.elim _ _
      subst ha
      apply Fin.ext
      simp only [hT]
      omega
  · rename_i h
    constructor
    · intro hnone; exact absurd hnone (by simp)
    · intro hT'
      exfalso
      apply h
      intro a
      rw [hT a, hs a]
      omega

include huw hiw hsd hiv in
/-- The accumulating scatter over the extended reals, read at one element: the operand's element plus the updates
    whose index word, read signed, is that element's position. -/
theorem scatterAdd_take (x : (⟨1, ![N]⟩ : Shape).Idx → EReal) (idx : IVec ⟨2, ![n, 1]⟩ w)
    (upd : (⟨1, ![n]⟩ : Shape).Idx → EReal) (i : (⟨1, ![N]⟩ : Shape).Idx) :
    Ideal.hostScatterAdd d x idx upd i
      = x i + ∑ j : (⟨1, ![n]⟩ : Shape).Idx, if (idx (ixP (j 0))).toInt = ((i 0).val : ℤ) then upd j else 0 := by
  unfold Ideal.hostScatterAdd
  rw [Finset.sum_filter]
  congr 1
  refine Finset.sum_congr rfl fun j _ => ?_
  by_cases hc : (idx (ixP (j 0))).toInt = ((i 0).val : ℤ)
  · rw [if_pos hc, if_pos ((resultIdx_eq_some_iff d huw hiw hsd hiv idx j i).mpr hc)]
  · rw [if_neg hc, if_neg (fun h => hc ((resultIdx_eq_some_iff d huw hiw hsd hiv idx j i).mp h))]

end Cert.LibScatterTake
end
-- ==== Proof.RefRead.lean ====
import proofs.«149772_j55929064129141_1_alg».proof.Proof.RefRunRead
import proofs.«149772_j55929064129141_1_alg».proof.Proof.Spec
import Idealize.ShloMosaic.Lib.ValueIdx
import Idealize.ShloMosaic.Lib.ValueIdxRank1
import Idealize.ShloMosaic.Lib.Pipeline.Value
import Idealize.ShloMosaic.Lib.StableHlo.Predicate
import Idealize.ShloMosaic.PureOps.Ideal.Laws
import proofs.«149772_j55929064129141_1_alg».proof.Proof.LibScatterTake

noncomputable section

namespace Cert.ReferenceIdeal.RefValue

open Cert.ReferenceIdeal Cert.ReferenceIdeal.Gen Idealize.ShloMosaic Idealize.ShloMosaic.TcCoe Idealize.SL.Sem
open Idealize.ShloMosaic.ValueIdx HistDice

/-- A 32 × 1048576 array of extended reals. -/
abbrev Arr : Type := (⟨S32x1048576, .f32⟩ : BufTy).Contents (Elt Ideal)

/-- The array read in row-major order over the flat index. -/
def flat (x : Arr) : S33554432.Idx → EReal := fun i => x (Read.idx_main_v0 i)

/-! ## Words: the clamped bin word -/

/-- The word clamped into `0 … 9` has a value of at most nine. -/
theorem clamp_toNat_le (x : BitVec 32) : (IntOp.minsi 9#32 (IntOp.maxsi 0#32 x)).toNat ≤ 9 := by
  have hx := x.isLt
  have h0 : (0#32 : BitVec 32).toInt = 0 := by decide
  have h9 : (9#32 : BitVec 32).toInt = 9 := by decide
  unfold IntOp.minsi IntOp.maxsi
  by_cases h1 : x.slt 0#32 = true
  · rw [if_pos h1, if_neg (by decide)]; decide
  · rw [if_neg h1]
    by_cases h2 : (9#32 : BitVec 32).slt x = true
    · rw [if_pos h2]; decide
    · rw [if_neg h2]
      simp only [BitVec.slt, h0, h9, decide_eq_true_eq, BitVec.toInt_eq_toNat_cond] at h1 h2
      split at h1 <;> split at h2 <;> omega

theorem binOf_toNat_le (ρ p t : EReal) : (binOf ρ p t).toNat ≤ 9 := clamp_toNat_le _

/-- A word of value at most nine reads the same signed. -/
theorem toInt_of_le_nine {b : BitVec 32} (hb : b.toNat ≤ 9) : b.toInt = (b.toNat : Int) :=
  StableHlo.Predicate.toInt_eq_toNat_of_lt (by omega)

/-- The negative-index wrap leaves a word of value at most nine as it is. -/
theorem wrap_id {b : BitVec 32} (hb : b.toNat ≤ 9) (y : BitVec 32) :
    Scalar.select (IntOp.cmpi .slt b 0#32) y b = b := by
  have h : IntOp.cmpi .slt b 0#32 = 0#1 := by
    apply eq_zero_of_ne_one
    rw [StableHlo.Predicate.slt_iff_toNat (by omega) (by decide)]
    show ¬ b.toNat < 0
    omega
  rw [h, select_zero]

/-- A word of value at most nine is the word of its value. -/
theorem eq_ofNat_iff {b : BitVec 32} (k : Fin 10) : b = BitVec.ofNat 32 k.val ↔ b.toNat = k.val := by
  constructor
  · intro h; rw [h, BitVec.toNat_ofNat]; have := k.isLt; omega
  · intro h; apply BitVec.eq_of_toNat_eq; rw [h, BitVec.toNat_ofNat]; have := k.isLt; omega

/-- Choosing among ten by the word of `k` is the `k`-th. -/
theorem pick_ofNat (cs : Fin 10 → EReal) (k : Fin 10) : pick cs (BitVec.ofNat 32 k.val) = cs k := by
  fin_cases k <;> rfl

/-- A natural-number sum, as an extended real, is the sum of the extended reals. -/
theorem coe_nat_sum {ι : Type} (S : Finset ι) (f : ι → ℕ) :
    (((∑ i ∈ S, f i : ℕ) : ℝ) : EReal) = ∑ i ∈ S, ((f i : ℝ) : EReal) := by
  induction S using Finset.cons_induction with
  | empty => simp
  | cons a S ha ih => rw [Finset.sum_cons, Finset.sum_cons, Nat.cast_add, EReal.coe_add, ih]

/-! ## The gather that looks a bin's count up -/

/-- The gather's dimension numbers. -/
abbrev gaD : GatherDims S10 S33554432x1 S33554432 := gather_S10_S33554432x1_S33554432_n_0_n_n_0_1_1

/-- Choosing among ten by a word of value at most nine is the one at its value. -/
theorem pick_of_le (cs : Fin 10 → EReal) {b : BitVec 32} (hb : b.toNat ≤ 9) :
    pick cs b = cs ⟨b.toNat, by omega⟩ := by
  have hk : b.toNat < 10 := by omega
  have h := pick_ofNat cs ⟨b.toNat, hk⟩
  have e : BitVec.ofNat 32 b.toNat = b := by rw [BitVec.ofNat_toNat, BitVec.setWidth_eq]
  rw [show (⟨b.toNat, hk⟩ : Fin 10).val = b.toNat from rfl, e] at h
  exact h

/-- The table looked up at an index word of value at most nine is the chosen one of the ten. -/
theorem gather_pick (x : S10.Idx → EReal) (idx : IVec S33554432x1 32) (p : Fin 33554432)
    (hb : (idx (ix2 p (0 : Fin 1))).toNat ≤ 9) :
    Host.gather gaD x idx (ix1 p) = pick (fun k => x (ix1 k)) (idx (ix2 p (0 : Fin 1))) := by
  have e1 : (Shape.Idx.ofFin p : S33554432.Idx) = ix1 p := by
    funext a; match a with | ⟨0, _⟩ => rfl
  have e2 : (StableHlo.Predicate.ixP p : S33554432x1.Idx) = ix2 p (0 : Fin 1) := by
    funext a; match a with | ⟨0, _⟩ => rfl | ⟨1, _⟩ => rfl
  rw [← e1, StableHlo.Predicate.gather_take gaD rfl rfl rfl rfl x idx p (by decide), pick_of_le _ hb]
  congr 1
  funext a
  match a with
  | ⟨0, _⟩ =>
    apply Fin.ext
    show min (idx (StableHlo.Predicate.ixP p)).toInt.toNat (10 - 1) = (idx (ix2 p (0 : Fin 1))).toNat
    rw [e2, toInt_of_le_nine hb]; omega

/-! ## The number of non-empty bins -/

/-- The integer sum of ten words of value at most one, from zero, is the sum of their values. -/
theorem reduce_ten (x : S10.Idx → BitVec 32) (init : S_.Idx → BitVec 32) (hx : ∀ i, (x i).toNat ≤ 1)
    (hinit : ∀ j, init j = 0#32) (j : S_.Idx) :
    (((Host.reduce IntOp.addi x init reducesTo_S10_S_d0 h_S_ j).toInt : ℝ) : EReal)
      = ∑ b : Fin 10, (((x (ix1 b)).toNat : ℝ) : EReal) := by
  classical
  rw [Host.reduce_eq_fold, hinit]
  have hall : (Finset.univ.filter fun i : S10.Idx => reducesTo_S10_S_d0.drop i = j) = Finset.univ :=
    Finset.filter_true_of_mem fun i _ => funext fun a => a.elim0
  rw [hall]
  have hsum : ∑ i : S10.Idx, (x i).toNat = ∑ b : Fin 10, (x (ix1 b)).toNat :=
    (Equiv.sum_comp idxEquiv1.symm fun i : S10.Idx => (x i).toNat).symm
  have hle : ∑ b : Fin 10, (x (ix1 b)).toNat ≤ 10 := by
    calc ∑ b : Fin 10, (x (ix1 b)).toNat ≤ ∑ b : Fin 10, 1 := Finset.sum_le_sum fun b _ => hx _
      _ = 10 := by simp
  have hN : (Finset.univ.fold IntOp.addi 0#32 x).toNat = ∑ b : Fin 10, (x (ix1 b)).toNat := by
    rw [StableHlo.Predicate.toNat_fold_addi _ _ (by rw [hsum]; omega), hsum]
  rw [StableHlo.Predicate.toInt_eq_toNat_of_lt (by rw [hN]; omega), hN, Int.cast_natCast]
  exact coe_nat_sum _ _

/-- The updates whose index word is bin `b`, summed, are the count of bin `b`. -/
theorem count_sum (idx : IVec S33554432x1 32) (upd P T L : S33554432.Idx → EReal) (ρ : EReal)
    (hidx : ∀ p : Fin 33554432, idx (ix2 p (0 : Fin 1)) = binOf ρ (P (ix1 p)) (T (ix1 p)))
    (hupd : ∀ j, upd j = bitVal (inBit ρ (P j) (T j) (L j))) (b : Fin 10) :
    (∑ j : S33554432.Idx, if (idx (StableHlo.Predicate.ixP (j 0))).toInt = (((ix1 b : S10.Idx) 0).val : ℤ) then upd j else 0)
      = HistDice.count P T L ρ b := by
  unfold HistDice.count
  refine Finset.sum_congr rfl fun j _ => ?_
  obtain ⟨p, rfl⟩ : ∃ p : Fin 33554432, j = ix1 p := ⟨j 0, eq_ix1 j⟩
  have e2 : (StableHlo.Predicate.ixP ((ix1 p : S33554432.Idx) 0) : S33554432x1.Idx) = ix2 p (0 : Fin 1) := by
    funext a; match a with | ⟨0, _⟩ => rfl | ⟨1, _⟩ => rfl
  rw [e2, hidx, hupd]
  have hw := binOf_toNat_le ρ (P (ix1 p)) (T (ix1 p))
  generalize binOf ρ (P (ix1 p)) (T (ix1 p)) = w at hw ⊢
  refine if_congr ?_ rfl rfl
  rw [toInt_of_le_nine hw, eq_ofNat_iff]
  show (w.toNat : Int) = (b.val : Int) ↔ w.toNat = b.val
  exact Nat.cast_inj

/-- The accumulating scatter of the program read at one element: the operand's element plus the updates whose index
    word, read signed, is that element's position. -/
theorem scatter_at (x : FVec Ideal S10 .f32) (idx : IVec S33554432x1 32) (upd : FVec Ideal S33554432 .f32) (i : S10.Idx) :
    Host.scatterAdd scatter_S10_S33554432x1_S33554432_n_0_0_1 x idx upd i
      = x i + ∑ j : S33554432.Idx, if (idx (StableHlo.Predicate.ixP (j 0))).toInt = ((i 0).val : ℤ) then upd j else 0 :=
  Cert.LibScatterTake.scatterAdd_take scatter_S10_S33554432x1_S33554432_n_0_0_1 rfl rfl rfl rfl x idx upd i

/-! ## The reference, stage by stage, over the flat index -/

section stages
variable (x0 x1 x2 : Arr)

theorem v0_at (i : S33554432.Idx) : Read.val_main_v0 (F := Ideal) x0 i = flat x0 i := Read.val_main_v0_apply x0 i
theorem v1_at (i : S33554432.Idx) : Read.val_main_v1 (F := Ideal) x1 i = flat x1 i := Read.val_main_v1_apply x1 i
theorem v2_at (i : S33554432.Idx) : Read.val_main_v2 (F := Ideal) x2 i = flat x2 i := Read.val_main_v2_apply x2 i

/-- The first flat sum is `∑ p·t`. -/
theorem v4_at (j : S_.Idx) : Read.val_main_v4 (F := Ideal) x0 x1 j = dotPT (flat x0) (flat x1) := by
  rw [Read.val_main_v4_apply, Read.val_main_cst_apply, Ideal.ofBits_def, Ideal.ofBits_zero_f32, zero_add]
  unfold dotPT
  refine Finset.sum_congr rfl fun i _ => ?_
  rw [Read.val_main_v3_apply, Ideal.mulf_def, v0_at, v1_at]

theorem v5_at (j : S_.Idx) : Read.val_main_v5 (F := Ideal) x0 j = total (flat x0) := by
  rw [Read.val_main_v5_apply, Read.val_main_cst_0_apply, Ideal.ofBits_def, Ideal.ofBits_zero_f32, zero_add]
  unfold total
  exact Finset.sum_congr rfl fun i _ => v0_at x0 i

theorem v6_at (j : S_.Idx) : Read.val_main_v6 (F := Ideal) x1 j = total (flat x1) := by
  rw [Read.val_main_v6_apply, Read.val_main_cst_1_apply, Ideal.ofBits_def, Ideal.ofBits_zero_f32, zero_add]
  unfold total
  exact Finset.sum_congr rfl fun i _ => v1_at x1 i

theorem v7_at (j : S_.Idx) : Read.val_main_v7 (F := Ideal) x0 x1 j = denom (flat x0) (flat x1) := by
  rw [Read.val_main_v7_apply, Ideal.addf_def, v5_at, v6_at]; rfl

theorem v9_at (j : S_.Idx) : Read.val_main_v9 (F := Ideal) x0 x1 j = ratio (flat x0) (flat x1) := by
  rw [Read.val_main_v9_apply, Ideal.hostDivf_def, Read.val_main_v8_apply, Ideal.mulf_def, Read.val_main_cst_2_apply,
    Ideal.ofBits_def, v4_at, v7_at]; rfl

/-- The gap of element `i`. -/
theorem v13_at (i : S33554432.Idx) :
    Read.val_main_v13 (F := Ideal) x0 x1 i = gap (ratio (flat x0) (flat x1)) (flat x0 i) (flat x1 i) := by
  rw [Read.val_main_v13_apply, Ideal.hostAbsf_def, Read.val_main_v12_apply, Read.val_main_v11_apply,
    Read.val_main_v10_apply, v9_at, v0_at, v1_at]; rfl

theorem v15_at (i : S33554432.Idx) : Read.val_main_v15 (F := Ideal) x2 i = validBit (flat x2 i) := by
  rw [Read.val_main_v15_apply, Read.val_main_v14_apply, Read.val_main_cst_3_apply, Ideal.ofBits_def,
    Ideal.ofBits_zero_f32, v2_at]; rfl

theorem v17_at (j : S_.Idx) : Read.val_main_v17 (F := Ideal) x2 j = validCount (flat x2) := by
  rw [Read.val_main_v17_apply, Read.val_main_cst_4_apply, Ideal.ofBits_def, Ideal.ofBits_zero_f32, zero_add]
  unfold validCount
  refine Finset.sum_congr rfl fun i _ => ?_
  rw [Read.val_main_v16_apply, v15_at]; rfl

theorem v18_at (j : S_.Idx) : Read.val_main_v18 (F := Ideal) x2 j = validTotal (flat x2) := by
  rw [Read.val_main_v18_apply, Ideal.maximumf_def, v17_at, Read.val_main_cst_5_apply, Ideal.ofBits_def]; rfl

theorem v21_at (i : S33554432.Idx) :
    Read.val_main_v21 (F := Ideal) x0 x1 x2 i
      = inBit (ratio (flat x0) (flat x1)) (flat x0 i) (flat x1 i) (flat x2 i) := by
  rw [Read.val_main_v21_apply, v15_at, Read.val_main_v20_apply, v13_at, Read.val_main_v19_apply,
    Read.val_main_cst_6_apply, Ideal.ofBits_def]; rfl

/-- The bin word of element `i`. -/
theorem v26_at (i : S33554432.Idx) :
    Read.val_main_v26 (F := Ideal) x0 x1 i = binOf (ratio (flat x0) (flat x1)) (flat x0 i) (flat x1 i) := by
  rw [Read.val_main_v26_apply, Read.val_main_call0_v4_apply, Read.val_main_call0_v3_apply, Read.val_main_c_8_apply,
    Read.val_main_call0_v2_apply, Read.val_main_call0_v1_apply, Read.val_main_call0_v0_apply, Read.val_main_c_apply,
    Read.val_main_v25_apply, Read.val_main_v24_apply, Read.val_main_v23_apply, v13_at, Read.val_main_v22_apply,
    Read.val_main_cst_7_apply, Ideal.ofBits_def, Ideal.hostUnary_floor_def, Ideal.mulf_def]
  unfold binOf
  exact congrArg (fun w => IntOp.minsi 9#32 (IntOp.maxsi 0#32 w)) rfl

end stages

section stages2
variable (x0 x1 x2 : Arr)

/-- The negative-index wrap leaves the bin word unchanged, before the scatter … -/
theorem v33_at (i : S33554432.Idx) :
    Read.val_main_v33 (F := Ideal) x0 x1 i = binOf (ratio (flat x0) (flat x1)) (flat x0 i) (flat x1 i) := by
  rw [Read.val_main_v33_apply, Read.val_main_v30_apply, Read.val_main_v29_apply, Read.val_main_c_10_apply, v26_at]
  exact wrap_id (binOf_toNat_le _ _ _) _

/-- … and before the gather. -/
theorem v45_at (i : S33554432.Idx) :
    Read.val_main_v45 (F := Ideal) x0 x1 i = binOf (ratio (flat x0) (flat x1)) (flat x0 i) (flat x1 i) := by
  rw [Read.val_main_v45_apply, Read.val_main_v42_apply, Read.val_main_v41_apply, Read.val_main_c_14_apply, v26_at]
  exact wrap_id (binOf_toNat_le _ _ _) _

theorem v34_at (p : Fin 33554432) :
    Read.val_main_v34 (F := Ideal) x0 x1 (ix2 p (0 : Fin 1))
      = binOf (ratio (flat x0) (flat x1)) (flat x0 (ix1 p)) (flat x1 (ix1 p)) := by
  have e : Read.idx_main_v34 (ix2 p (0 : Fin 1)) = ix1 p := by
    funext a; match a with | ⟨0, _⟩ => rfl
  rw [Read.val_main_v34_apply, e, v33_at]

theorem v46_at (p : Fin 33554432) :
    Read.val_main_v46 (F := Ideal) x0 x1 (ix2 p (0 : Fin 1))
      = binOf (ratio (flat x0) (flat x1)) (flat x0 (ix1 p)) (flat x1 (ix1 p)) := by
  have e : Read.idx_main_v46 (ix2 p (0 : Fin 1)) = ix1 p := by
    funext a; match a with | ⟨0, _⟩ => rfl
  rw [Read.val_main_v46_apply, e, v45_at]

/-- The scatter-add builds the ten bin counts. -/
theorem v35_at (b : Fin 10) :
    Read.val_main_v35 (F := Ideal) x0 x1 x2 (ix1 b)
      = count (flat x0) (flat x1) (flat x2) (ratio (flat x0) (flat x1)) b := by
  have hidx := v34_at x0 x1
  have hupd : ∀ j, Read.val_main_v28 (F := Ideal) x0 x1 x2 j
      = bitVal (inBit (ratio (flat x0) (flat x1)) (flat x0 j) (flat x1 j) (flat x2 j)) := fun j => by
    rw [Read.val_main_v28_apply, v21_at]; rfl
  have hx : Read.val_main_v27 (F := Ideal) (ix1 b) = 0 := by
    rw [Read.val_main_v27_apply, Read.val_main_cst_9_apply, Ideal.ofBits_def, Ideal.ofBits_zero_f32]
  unfold Read.val_main_v35
  rw [scatter_at, hx, zero_add]
  exact count_sum (Read.val_main_v34 (F := Ideal) x0 x1) (Read.val_main_v28 (F := Ideal) x0 x1 x2)
    (flat x0) (flat x1) (flat x2) _ hidx hupd b

theorem v37_at (b : Fin 10) :
    Read.val_main_v37 (F := Ideal) x0 x1 x2 (ix1 b)
      = Ideal.cmp .ogt (count (flat x0) (flat x1) (flat x2) (ratio (flat x0) (flat x1)) b) 0 := by
  rw [Read.val_main_v37_apply, v35_at, Read.val_main_v36_apply, Read.val_main_cst_12_apply, Ideal.ofBits_def,
    Ideal.ofBits_zero_f32]; rfl

/-- A widened bit keeps its value. -/
theorem toNat_setWidth_bit' (b : BitVec 1) : (b.setWidth 32).toNat = b.toNat := by
  rcases BitVec.eq_zero_or_eq_one b with rfl | rfl <;> rfl

/-- The number of non-empty bins. -/
theorem v40_at (j : S_.Idx) :
    Read.val_main_v40 (F := Ideal) x0 x1 x2 j
      = ∑ b : Fin 10, bitVal (Ideal.cmp .ogt (count (flat x0) (flat x1) (flat x2) (ratio (flat x0) (flat x1)) b) 0) := by
  rw [Read.val_main_v40_apply]
  unfold Read.val_main_v39
  have hx : ∀ i, (Read.val_main_v38 (F := Ideal) x0 x1 x2 i).toNat ≤ 1 := fun i => by
    rw [Read.val_main_v38_apply, toNat_setWidth_bit']
    have := (Read.val_main_v37 (F := Ideal) x0 x1 x2 i).isLt
    omega
  have hv : ∀ b : Fin 10, (((Read.val_main_v38 (F := Ideal) x0 x1 x2 (ix1 b)).toNat : ℝ) : EReal)
      = bitVal (Ideal.cmp .ogt (count (flat x0) (flat x1) (flat x2) (ratio (flat x0) (flat x1)) b) 0) := fun b => by
    rw [Read.val_main_v38_apply, toNat_setWidth_bit', v37_at]; rfl
  generalize Read.val_main_v38 (F := Ideal) x0 x1 x2 = x at hx hv ⊢
  refine (reduce_ten x (Read.val_main_c_13 (F := Ideal)) hx (fun _ => rfl) j).trans ?_
  exact Finset.sum_congr rfl fun b _ => hv b

theorem v53_at (j : S_.Idx) :
    Read.val_main_v53 (F := Ideal) x0 x1 x2 j
      = nonempty (count (flat x0) (flat x1) (flat x2) (ratio (flat x0) (flat x1))) := by
  rw [Read.val_main_v53_apply, Ideal.maximumf_def, v40_at, Read.val_main_cst_18_apply, Ideal.ofBits_def]; rfl

/-- The gather looks the count of an element's bin up. -/
theorem v47_at (i : S33554432.Idx) :
    Read.val_main_v47 (F := Ideal) x0 x1 x2 i
      = pick (count (flat x0) (flat x1) (flat x2) (ratio (flat x0) (flat x1)))
          (binOf (ratio (flat x0) (flat x1)) (flat x0 i) (flat x1 i)) := by
  obtain ⟨p, rfl⟩ : ∃ p : Fin 33554432, i = ix1 p := ⟨i 0, eq_ix1 i⟩
  unfold Read.val_main_v47
  have hidx := v46_at x0 x1 p
  have hx := v35_at x0 x1 x2
  generalize Read.val_main_v46 (F := Ideal) x0 x1 = idx at hidx ⊢
  generalize Read.val_main_v35 (F := Ideal) x0 x1 x2 = x at hx ⊢
  rw [gather_pick x idx p (by rw [hidx]; exact binOf_toNat_le _ _ _), hidx]
  have hfun : (fun k : Fin 10 => x (ix1 k))
      = count (flat x0) (flat x1) (flat x2) (ratio (flat x0) (flat x1)) := funext hx
  rw [hfun]

/-- One element's weight. -/
theorem v55_at (i : S33554432.Idx) :
    Read.val_main_v55 (F := Ideal) x0 x1 x2 i
      = weight (ratio (flat x0) (flat x1)) (validTotal (flat x2))
          (nonempty (count (flat x0) (flat x1) (flat x2) (ratio (flat x0) (flat x1))))
          (count (flat x0) (flat x1) (flat x2) (ratio (flat x0) (flat x1))) (flat x0 i) (flat x1 i) (flat x2 i) := by
  rw [Read.val_main_v55_apply, Read.val_main_v54_apply, v53_at, Read.val_main_v52_apply, v21_at,
    Read.val_main_v51_apply, Read.val_main_v50_apply, v18_at, Read.val_main_v49_apply, v47_at,
    Read.val_main_v48_apply, Read.val_main_cst_16_apply, Read.val_main_call1_v1_apply,
    Read.val_main_call1_v0_apply, Read.val_main_cst_17_apply]
  simp only [Ideal.ofBits_def, Ideal.ofBits_zero_f32, Ideal.hostDivf_def, Ideal.maximumf_def]
  rfl

/-- One element's term of the weighted sum. -/
theorem v59_at (i : S33554432.Idx) :
    Read.val_main_v59 (F := Ideal) x0 x1 x2 i
      = term (ratio (flat x0) (flat x1)) (validTotal (flat x2))
          (nonempty (count (flat x0) (flat x1) (flat x2) (ratio (flat x0) (flat x1))))
          (count (flat x0) (flat x1) (flat x2) (ratio (flat x0) (flat x1))) (flat x0 i) (flat x1 i) (flat x2 i) := by
  rw [Read.val_main_v59_apply, v55_at, Read.val_main_v58_apply, Read.val_main_v57_apply, Read.val_main_v56_apply,
    Read.val_main_cst_19_apply, v0_at, v1_at]
  simp only [Ideal.ofBits_def, Ideal.mulf_def]
  rfl

/-- The reference's result is the loss of the three flat arrays. -/
theorem v63_at (j : S_.Idx) :
    Read.val_main_v63 (F := Ideal) x0 x1 x2 j = loss (flat x0) (flat x1) (flat x2) := by
  have h60 : Read.val_main_v60 (F := Ideal) x0 x1 x2 j
      = weighted (flat x0) (flat x1) (flat x2) (ratio (flat x0) (flat x1)) (validTotal (flat x2))
          (nonempty (count (flat x0) (flat x1) (flat x2) (ratio (flat x0) (flat x1))))
          (count (flat x0) (flat x1) (flat x2) (ratio (flat x0) (flat x1))) := by
    rw [Read.val_main_v60_apply, Read.val_main_cst_20_apply, Ideal.ofBits_def, Ideal.ofBits_zero_f32, zero_add]
    unfold weighted
    exact Finset.sum_congr rfl fun i _ => v59_at x0 x1 x2 i
  rw [Read.val_main_v63_apply, Read.val_main_v62_apply, Read.val_main_v61_apply, h60, v7_at,
    Read.val_main_cst_21_apply, Read.val_main_cst_22_apply]
  simp only [Ideal.ofBits_def, Ideal.mulf_def, Ideal.subf_def, Ideal.hostDivf_def]
  rfl

end stages2

/-! ## The flat index is the row-major index of the 32 × 1048576 arrays -/

/-- The flat index `i` against (row `i / 1048576`, column `i % 1048576`). -/
def flatEquiv : S33554432.Idx ≃ S32x1048576.Idx where
  toFun := Read.idx_main_v0
  invFun q := ix1 ⟨(q 0).val * 1048576 + (q 1).val, by
    have h0 := idx2_lt0 q; have h1 := idx2_lt1 q; omega⟩
  left_inv i := by
    funext a
    match a with
    | ⟨0, _⟩ =>
      apply Fin.ext
      show (i 0).val / 1048576 * 1048576 + (i 0).val % 1048576 = (i 0).val
      omega
  right_inv q := by
    have h0 := idx2_lt0 q; have h1 := idx2_lt1 q
    funext a
    match a with
    | ⟨0, _⟩ =>
      apply Fin.ext
      show ((q 0).val * 1048576 + (q 1).val) / 1048576 = (q 0).val
      omega
    | ⟨1, _⟩ =>
      apply Fin.ext
      show ((q 0).val * 1048576 + (q 1).val) % 1048576 = (q 1).val
      omega

variable (m : (ℓ : Loc nD τ sig) → Buf (Elt Ideal) ℓ)

/-- The three arguments as launched. -/
abbrev argP (c : Dev nD) : S32x1048576.Idx → EReal := m ((c : Thread nD τ).loc main_arg0)
abbrev argT (c : Dev nD) : S32x1048576.Idx → EReal := m ((c : Thread nD τ).loc main_arg1)
abbrev argL (c : Dev nD) : S32x1048576.Idx → EReal := m ((c : Thread nD τ).loc main_arg2)

/-- The reference's result term is the loss of the three arguments. -/
theorem result_eq (c : Dev nD) :
    (Cert.ReferenceIdeal.Value.res_out0 (F := Ideal) m c : S_.Idx → EReal) = fun _ => loss (argP m c) (argT m c) (argL m c) := by
  funext j
  exact (congrFun (Read.val_main_v63_eq (F := Ideal) m c) j).trans
    ((v63_at _ _ _ j).trans (loss_comp flatEquiv (argP m c) (argT m c) (argL m c)))

end Cert.ReferenceIdeal.RefValue

end
-- ==== Proof.lean ====
/-
  The histogram-weighted Dice loss of three `32 × 1048576` arrays, computed by a program of three kernels against a
  flat jnp computation, over the extended reals.

  The kernel program makes three passes over the arrays, each a pipeline over sixty-four column blocks that
  accumulates a row of 128 lanes: the first sums `p`, `t`, `p·t` and the valid elements; from those the host
  forms the ratio `2·I/S` and the valid total; the second counts, per bin of the gap `|ratio·p − t|`, the in-range
  elements; the host counts the non-empty bins; the third sums `2·p·t·weight`; the host ends with
  `1 − sum / S`. The reference flattens the arrays, builds the ten counts by an accumulating scatter, looks each
  element's count up by a gather, and takes the same sums flat.

  Both results are ONE function of the three arrays, `HistDice.loss` (Proof/Spec.lean): on the kernel's side the
  fold through @main's segments leaves it in the result buffer (Proof/Glue.lean over the three regions' values,
  Proof/Region0.lean, Region1.lean, Region2.lean); on the reference's side its composed term is that function of the
  flattened arrays, and the loss does not depend on how the elements are indexed (Proof/RefRead.lean). Only
  associativity and commutativity of `+` on the extended reals are used: no finiteness.
-/
import proofs.«149772_j55929064129141_1_alg».proof.Defs
import proofs.«149772_j55929064129141_1_alg».proof.Proof.Gen.Kernel
import proofs.«149772_j55929064129141_1_alg».proof.Proof.Gen.Kernel.Frame
import proofs.«149772_j55929064129141_1_alg».proof.Proof.Gen.KernelIdeal
import proofs.«149772_j55929064129141_1_alg».proof.Proof.Gen.KernelIdeal.Frame
import proofs.«149772_j55929064129141_1_alg».proof.Proof.Gen.ReferenceIdeal
import proofs.«149772_j55929064129141_1_alg».proof.Proof.Gen.Pre_finite_inputs
import proofs.«149772_j55929064129141_1_alg».proof.Proof.KRun
import proofs.«149772_j55929064129141_1_alg».proof.Proof.Glue
import proofs.«149772_j55929064129141_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference's run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two programs, run from memories that agree on the three arrays, end with the same number: the loss of
    those arrays. -/
theorem algebraic : Cert.algebraic_KernelIdeal_ReferenceIdeal := by
  intro m ρ m' ρ' _ hagree
  refine ⟨fun c => Cert.KernelIdeal.Gen.W6 m ρ c (Proc.devRef .tc Cert.KernelIdeal.main_v44),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq m' c).trans ?_
  refine Eq.trans ?_ (Cert.KernelIdeal.Glue.result_eq m ρ c).symm
  show (fun _ => HistDice.loss _ _ _) = fun _ => HistDice.loss _ _ _
  rw [show Cert.ReferenceIdeal.RefValue.argP m' c = Cert.KernelIdeal.Glue.argP m c from (hagree c).1,
    show Cert.ReferenceIdeal.RefValue.argT m' c = Cert.KernelIdeal.Glue.argT m c from (hagree c).2.1,
    show Cert.ReferenceIdeal.RefValue.argL m' c = Cert.KernelIdeal.Glue.argL m c from (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
